-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1x1024 : S_.BroadcastsInDim S1x1024 (![] : Fin 0 → Fin S1x1024.rank)
  reducesTo_S1x1024_S_d0_1 : S1x1024.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1 .f32) (main_v33 : IVec S_ 1) : IVec S_ 1 :=
  let main_v34 : FVec F S1 .f32 := Host.absf main_arg7
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg4 : FVec F S1024x1024 .f32) (main_arg5 : FVec F S1024 .f32) (main_arg6 : FVec F S1x1024 .f32) (main_arg7 : FVec F S1 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1x1024 .f32 := Host.absf main_arg6
  let main_cst_10 : FVec F S_ .f32 := constant S_ .f32 0x7F800000#32
  let main_v30 : FVec F S1x1024 .f32 := broadcastInDim S1x1024 ![] bcast_S_S1x1024 main_cst_10
  let main_v31 : IVec S1x1024 1 := cmpf .olt main_v29 main_v30
  let main_c_11 : IVec S_ 1 := constantI S_ 1 1#1
  let main_v32 : IVec S_ 1 := (fun x v => Host.reduce IntOp.andi x v reducesTo_S1x1024_S_d0_1 h_S_) main_v31 main_c_11
  let main_v33 : IVec S_ 1 := andi main_v28 main_v32
  fn_part2 (F := F) main_arg7 main_v33

def fn {F : FTy → Type} [FloatOps F] (main_arg0 : FVec F S8x4096x1024 .f32) (main_arg1 : FVec F S8x4096x1024 .f32) (main_arg2 : FVec F S1024x1024 .f32) (main_arg3 : FVec F S1024 .f32) (main_arg4 : FVec F S1024x1024 .f32) (main_arg5 : FVec F S1024 .f32) (main_arg6 : FVec F S1x1024 .f32) (main_arg7 : FVec F S1 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_v13 main_v16
-- ==== Kernel.lean ====
abbrev S8x4096x1024 : Shape := ⟨3, ![8, 4096, 1024]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S8x4096 : Shape := ⟨2, ![8, 4096]⟩
abbrev S8x128x1024 : Shape := ⟨3, ![8, 128, 1024]⟩
abbrev S8x128 : Shape := ⟨2, ![8, 128]⟩
abbrev S1x1x1024 : Shape := ⟨3, ![1, 1, 1024]⟩
abbrev S_ : Shape := ⟨0, ![]⟩
abbrev S8 : Shape := ⟨1, ![8]⟩
abbrev S8x1 : Shape := ⟨2, ![8, 1]⟩
abbrev S8x1024 : Shape := ⟨2, ![8, 1024]⟩
abbrev S8x256 : Shape := ⟨2, ![8, 256]⟩
abbrev S8x256x1024 : Shape := ⟨3, ![8, 256, 1024]⟩
abbrev S8x256x1 : Shape := ⟨3, ![8, 256, 1]⟩
abbrev S8x1x1024 : Shape := ⟨3, ![8, 1, 1024]⟩
abbrev S8x1x4096 : Shape := ⟨3, ![8, 1, 4096]⟩

abbrev nBuf : Space → Nat
  | .hbm => 31
  | .vmem => 18
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1, .f32⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S1x1, .f32⟩
  | .hbm, ⟨13, _⟩ => ⟨S8x4096, .f32⟩
  | .hbm, ⟨14, _⟩ => ⟨S_, .f32⟩
  | .hbm, ⟨15, _⟩ => ⟨S8, .f32⟩
  | .hbm, ⟨16, _⟩ => ⟨S_, .f32⟩
  | .hbm, ⟨17, _⟩ => ⟨S8, .f32⟩
  | .hbm, ⟨18, _⟩ => ⟨S8, .f32⟩
  | .hbm, ⟨19, _⟩ => ⟨S8x1, .f32⟩
  | .hbm, ⟨20, _⟩ => ⟨S8x4096, .f32⟩
  | .hbm, ⟨21, _⟩ => ⟨S8x4096, .f32⟩
  | .hbm, ⟨22, _⟩ => ⟨S8x4096, .f32⟩
  | .hbm, ⟨23, _⟩ => ⟨S_, .f32⟩
  | .hbm, ⟨24, _⟩ => ⟨S8, .f32⟩
  | .hbm, ⟨25, _⟩ => ⟨S8x1, .f32⟩
  | .hbm, ⟨26, _⟩ => ⟨S8x4096, .f32⟩
  | .hbm, ⟨27, _⟩ => ⟨S8x4096, .f32⟩
  | .hbm, ⟨28, _⟩ => ⟨S8x1024, .f32⟩
  | .hbm, ⟨29, _⟩ => ⟨S8x1x1024, .f32⟩
  | .hbm, ⟨30, _⟩ => ⟨S8x1x4096, .f32⟩
  | .local _ .vmem, ⟨0, _⟩ => ⟨S8x128x1024, .f32⟩
  | .local _ .vmem, ⟨1, _⟩ => ⟨S8x128x1024, .f32⟩
  | .local _ .vmem, ⟨2, _⟩ => ⟨S8x128x1024, .f32⟩
  | .local _ .vmem, ⟨3, _⟩ => ⟨S8x128x1024, .f32⟩
  | .local _ .vmem, ⟨4, _⟩ => ⟨S1024x1024, .bf16⟩
  | .local _ .vmem, ⟨5, _⟩ => ⟨S1024, .f32⟩
  | .local _ .vmem, ⟨6, _⟩ => ⟨S1024x1024, .bf16⟩
  | .local _ .vmem, ⟨7, _⟩ => ⟨S1024, .f32⟩
  | .local _ .vmem, ⟨8, _⟩ => ⟨S1x1024, .f32⟩
  | .local _ .vmem, ⟨9, _⟩ => ⟨S1x1, .f32⟩
  | .local _ .vmem, ⟨10, _⟩ => ⟨S8x128, .f32⟩
  | .local _ .vmem, ⟨11, _⟩ => ⟨S8x128, .f32⟩
  | .local _ .vmem, ⟨12, _⟩ => ⟨S8x256, .f32⟩
  | .local _ .vmem, ⟨13, _⟩ => ⟨S8x256, .f32⟩
  | .local _ .vmem, ⟨14, _⟩ => ⟨S8x256x1024, .f32⟩
  | .local _ .vmem, ⟨15, _⟩ => ⟨S8x256x1024, .f32⟩
  | .local _ .vmem, ⟨16, _⟩ => ⟨S8x1024, .f32⟩
  | .local _ .vmem, ⟨17, _⟩ => ⟨S8x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S8x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S8x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

class Facts₀ : Prop where
  transposes_S1024x1024_S1024x1024_1_0 : S1024x1024.Transposes [1, 0] S1024x1024
  bitsLt_bf16_f32 : FTy.bits .bf16 < FTy.bits .f32
  shapeCasts_S1_S1x1 : S1.ShapeCasts S1x1
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S1024x1024 : S8x128x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S1024x1024_S8x128x1024 : S1024x1024.ShapeCasts S8x128x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S8x128x1024 : S1x1x1024.Broadcasts S8x128x1024
  inb_S1x1024_S1x1024_0_0 : ∀ a, (![0, 0] : Fin 2 → Nat) a + S1x1024.size a ≤ S1x1024.size a
  h_S1x1024 : 0 < S1x1024.numel
  shapeCasts_S1x1024_S1x1x1024 : S1x1024.ShapeCasts S1x1x1024
  reduces_S8x128x1024_S8x128 : S8x128x1024.Reduces [2] S8x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S8x4096_S8_d1 : S8x4096.ReducesTo [1] S8
  h_S_ : 0 < S_.numel
  bcast_S_S8 : S_.BroadcastsInDim S8 (![] : Fin 0 → Fin S8.rank)
  bcast_S8_S8x1_0 : S8.BroadcastsInDim S8x1 (![0] : Fin 1 → Fin S8x1.rank)
  bcast_S8x1_S8x4096_0_1 : S8x1.BroadcastsInDim S8x4096 (![0, 1] : Fin 2 → Fin S8x4096.rank)
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S8x256_S8x256_0_0 : ∀ a, (![0, 0] : Fin 2 → Nat) a + S8x256.size a ≤ S8x256.size a
  h_S8x256 : 0 < S8x256.numel
  shapeCasts_S8x256_S8x256 : S8x256.ShapeCasts S8x256
  inb_S8x256x1024_S8x256x1024_0_0_0 : ∀ a, (![0, 0, 0] : Fin 3 → Nat) a + S8x256x1024.size a ≤ S8x256x1024.size a
  h_S8x256x1024 : 0 < S8x256x1024.numel
  shapeCasts_S8x256_S8x256x1 : S8x256.ShapeCasts S8x256x1
  broadcasts_S8x256x1_S8x256x1024 : S8x256x1.Broadcasts S8x256x1024
  reduces_S8x256x1024_S8x1024 : S8x256x1024.Reduces [1] S8x1024
  bcast_S8x1024_S8x1x1024_0_2 : S8x1024.BroadcastsInDim S8x1x1024 (![0, 2] : Fin 2 → Fin S8x1x1024.rank)
  bcast_S8x4096_S8x1x4096_0_2 : S8x4096.BroadcastsInDim S8x1x4096 (![0, 2] : Fin 2 → Fin S8x1x4096.rank)
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S8x4096x1024.size a
  hwx0_0 : ∀ i : grid0.Coords, EltTy.bits .f32 = 32 ∨ (Rect.block (s := S8x4096x1024) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x1024.size a ≤ S8x4096x1024.size a
  hwx0_1 : ∀ i : grid0.Coords, EltTy.bits .f32 = 32 ∨ (Rect.block (s := S8x4096x1024) S8x128x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S8x4096.size a
  hwx0_8 : ∀ i : grid0.Coords, EltTy.bits .f32 = 32 ∨ (Rect.block (s := S8x4096) S8x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256.size a ≤ S8x4096.size a
  hwx1_0 : ∀ i : grid1.Coords, EltTy.bits .f32 = 32 ∨ (Rect.block (s := S8x4096) S8x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x1024.size a ≤ S8x4096x1024.size a
  hwx1_1 : ∀ i : grid1.Coords, EltTy.bits .f32 = 32 ∨ (Rect.block (s := S8x4096x1024) S8x256x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S8x1024.size a ≤ S8x1024.size a
  hwx1_2 : ∀ i : grid1.Coords, EltTy.bits .f32 = 32 ∨ (Rect.block (s := S8x1024) S8x1024.size (cc1_transform_2 i) (hinb1_2 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v5) S8x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v16) S8x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S8x256x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S8x1024.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩
abbrev S1024 : Shape := ⟨1, ![1024]⟩
abbrev S1x1024 : Shape := ⟨2, ![1, 1024]⟩
abbrev S1 : Shape := ⟨1, ![1]⟩
abbrev S1x1x1024 : Shape := ⟨3, ![1, 1, 1024]⟩
abbrev S8x4096x1 : Shape := ⟨3, ![8, 4096, 1]⟩
abbrev S1x1x1 : Shape := ⟨3, ![1, 1, 1]⟩
abbrev S8x4096 : Shape := ⟨2, ![8, 4096]⟩
abbrev S8x1x4096 : Shape := ⟨3, ![8, 1, 4096]⟩
abbrev S_ : Shape := ⟨0, ![]⟩
abbrev S8x1 : Shape := ⟨2, ![8, 1]⟩
abbrev S8x1x1 : Shape := ⟨3, ![8, 1, 1]⟩
abbrev S8x1x1024 : Shape := ⟨3, ![8, 1, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1x1024, .f32⟩
  | .hbm, ⟨7, _⟩ => ⟨S1, .f32⟩
  | .hbm, ⟨8, _⟩ => ⟨S8x4096x1024, .f32⟩
  | .hbm, ⟨9, _⟩ => ⟨S1x1x1024, .f32⟩
  | .hbm, ⟨10, _⟩ => ⟨S8x4096x1024, .f32⟩
  | .hbm, ⟨11, _⟩ => ⟨S8x4096x1024, .f32⟩
  | .hbm, ⟨12, _⟩ => ⟨S8x4096x1024, .f32⟩
  | .hbm, ⟨13, _⟩ => ⟨S1x1x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S8x4096x1024, .f32⟩
  | .hbm, ⟨18, _⟩ => ⟨S8x4096x1, .f32⟩
  | .hbm, ⟨19, _⟩ => ⟨S1x1x1, .f32⟩
  | .hbm, ⟨20, _⟩ => ⟨S8x4096x1, .f32⟩
  | .hbm, ⟨21, _⟩ => ⟨S8x4096x1, .f32⟩
  | .hbm, ⟨22, _⟩ => ⟨S8x4096, .f32⟩
  | .hbm, ⟨23, _⟩ => ⟨S8x1x4096, .f32⟩
  | .hbm, ⟨24, _⟩ => ⟨S_, .f32⟩
  | .hbm, ⟨25, _⟩ => ⟨S8x1, .f32⟩
  | .hbm, ⟨26, _⟩ => ⟨S_, .f32⟩
  | .hbm, ⟨27, _⟩ => ⟨S8x1, .f32⟩
  | .hbm, ⟨28, _⟩ => ⟨S8x1, .f32⟩
  | .hbm, ⟨29, _⟩ => ⟨S8x1x1, .f32⟩
  | .hbm, ⟨30, _⟩ => ⟨S8x1x4096, .f32⟩
  | .hbm, ⟨31, _⟩ => ⟨S8x1x4096, .f32⟩
  | .hbm, ⟨32, _⟩ => ⟨S8x1x4096, .f32⟩
  | .hbm, ⟨33, _⟩ => ⟨S_, .f32⟩
  | .hbm, ⟨34, _⟩ => ⟨S8x1, .f32⟩
  | .hbm, ⟨35, _⟩ => ⟨S8x1x1, .f32⟩
  | .hbm, ⟨36, _⟩ => ⟨S8x1x4096, .f32⟩
  | .hbm, ⟨37, _⟩ => ⟨S8x1x4096, .f32⟩
  | .hbm, ⟨38, _⟩ => ⟨S8x1x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst : Ref sig .tc := ⟨.hbm, 24, rfl⟩
abbrev main_v16 : Ref sig .tc := ⟨.hbm, 25, rfl⟩
abbrev main_cst_0 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x4096x1024_0_1_2 : S1x1x1024.BroadcastsInDim S8x4096x1024 (![0, 1, 2] : Fin 3 → Fin S8x4096x1024.rank)
  bcast_S1_S1x1x1_2 : S1.BroadcastsInDim S1x1x1 (![2] : Fin 1 → Fin S1x1x1.rank)
  bcast_S1x1x1_S8x4096x1_0_1_2 : S1x1x1.BroadcastsInDim S8x4096x1 (![0, 1, 2] : Fin 3 → Fin S8x4096x1.rank)
  shapeCasts_S8x4096x1_S8x4096 : S8x4096x1.ShapeCasts S8x4096
  bcast_S8x4096_S8x1x4096_0_2 : S8x4096.BroadcastsInDim S8x1x4096 (![0, 2] : Fin 2 → Fin S8x1x4096.rank)
  reducesTo_S8x1x4096_S8x1_d2 : S8x1x4096.ReducesTo [2] S8x1
  h_S_ : 0 < S_.numel
  bcast_S_S8x1 : S_.BroadcastsInDim S8x1 (![] : Fin 0 → Fin S8x1.rank)
  bcast_S8x1_S8x1x1_0_1 : S8x1.BroadcastsInDim S8x1x1 (![0, 1] : Fin 2 → Fin S8x1x1.rank)
  bcast_S8x1x1_S8x1x4096_0_1_2 : S8x1x1.BroadcastsInDim S8x1x4096 (![0, 1, 2] : Fin 3 → Fin S8x1x4096.rank)
  dot_S8x4096x1024_S1024x1024_S8x4096x1024_2_1_01_0_n_n_wf : DotDims.WF S8x4096x1024 S1024x1024 S8x4096x1024 [2] [1] [0, 1] [0] [] []
  dot_S8x4096x1024_S1x1024_S8x4096x1_2_1_01_0_n_n_wf : DotDims.WF S8x4096x1024 S1x1024 S8x4096x1 [2] [1] [0, 1] [0] [] []
  dot_S8x1x4096_S8x4096x1024_S8x1x1024_2_1_1_2_0_0_wf : DotDims.WF S8x1x4096 S8x4096x1024 S8x1x1024 [2] [1] [1] [2] [0] [0]

variable [Facts₀]

def dot_S8x4096x1024_S1024x1024_S8x4096x1024_2_1_01_0_n_n : DotDims S8x4096x1024 S1024x1024 S8x4096x1024 where
  lhsContracting := [2]
  rhsContracting := [1]
  lhsNonContracting := [0, 1]
  rhsNonContracting := [0]
  lhsBatch := []
  rhsBatch := []
  wf := dot_S8x4096x1024_S1024x1024_S8x4096x1024_2_1_01_0_n_n_wf
def dot_S8x4096x1024_S1x1024_S8x4096x1_2_1_01_0_n_n : DotDims S8x4096x1024 S1x1024 S8x4096x1 where
  lhsContracting := [2]
  rhsContracting := [1]
  lhsNonContracting := [0, 1]
  rhsNonContracting := [0]
  lhsBatch := []
  rhsBatch := []
  wf := dot_S8x4096x1024_S1x1024_S8x4096x1_2_1_01_0_n_n_wf
def dot_S8x1x4096_S8x4096x1024_S8x1x1024_2_1_1_2_0_0 : DotDims S8x1x4096 S8x4096x1024 S8x1x1024 where
  lhsContracting := [2]
  rhsContracting := [1]
  lhsNonContracting := [1]
  rhsNonContracting := [2]
  lhsBatch := [0]
  rhsBatch := [0]
  wf := dot_S8x1x4096_S8x4096x1024_S8x1x1024_2_1_1_2_0_0_wf

class Facts : Prop extends Facts₀ where

variable [Facts]
-- ==== Proof.FrameK.Reg0.lean ====
/-
  The scores region (the first pallas_call), at any float instance and at any contents `V` of the core's buffers when
  the region is entered. At grid point `t` the body reads the point's block of 128 sequence positions of the queries
  and of the keys, the two transposed weight matrices, the two bias rows, the score weights and the score bias, and
  stores one [8, 128] block of scores: `out0_8` of the eight blocks read. This module states what each window's
  staging buffer holds after the body at each point (`dat0`) and proves that the body, run from those contents,
  leaves them (`body_obligation0`).
-/
import proofs.«108339_j59459527246143_1_alg».proof.Proof.Gen.Kernel.Launch
import proofs.«108339_j59459527246143_1_alg».proof.Proof.Gen.Kernel.Skeleton
import proofs.«108339_j59459527246143_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The [8, 128] block of scores the body stores, from the eight blocks it reads (in window order: queries, keys,
    transposed query weights, query bias, transposed key weights, key bias, score weights, score bias). -/
def out0_8 (x0 x1 : Vec F S8x128x1024 .f32) (x2 : Vec F S1024x1024 .bf16) (x3 : Vec F S1024 .f32)
    (x4 : Vec F S1024x1024 .bf16) (x5 : Vec F S1024 .f32) (x6 : Vec F S1x1024 .f32) (x7 : Vec F S1x1 .f32) : Vec F S8x128 .f32 :=
  k0_pay1 x0 x1 x2 x4 x3 x5 x6 x7

/-- The stored block is the body's arithmetic of the blocks read. -/
theorem out0_8_eq (x0 x1 : Vec F S8x128x1024 .f32) (x2 : Vec F S1024x1024 .bf16) (x3 : Vec F S1024 .f32)
    (x4 : Vec F S1024x1024 .bf16) (x5 : Vec F S1024 .f32) (x6 : Vec F S1x1024 .f32) (x7 : Vec F S1x1 .f32) :
    out0_8 x0 x1 x2 x3 x4 x5 x6 x7 = k0_pay1 x0 x1 x2 x4 x3 x5 x6 x7 := rfl

/-- The region's proof data on core `c`: the arrays as the region finds them; after the body at point `t` each input
    window's buffer still at its block and the output window's at the block of scores; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t
    = out0_8 (iblk0 V c 0 t) (iblk0 V c 1 t) (iblk0 V c 2 t) (iblk0 V c 3 t) (iblk0 V c 4 t) (iblk0 V c 5 t) (iblk0 V c 6 t) (iblk0 V c 7 t) := by
  dsimp only [dat0]

/-! ## The body's accesses -/

theorem zeros0_r1 : (![0] : Fin 1 → Nat) = fun _ => 0 := funext fun a => by fin_cases a <;> rfl
theorem zeros0_r2 : (![0, 0] : Fin 2 → Nat) = fun _ => 0 := funext fun a => by fin_cases a <;> rfl
theorem zeros0_r3 : (![0, 0, 0] : Fin 3 → Nat) = fun _ => 0 := funext fun a => by fin_cases a <;> rfl

/-- The one rectangle the body stores through: the whole [8, 128] block. -/
abbrev r0_8 : Rect S8x128 := Rect.unit (s := S8x128) ![0, 0] S8x128.size inb_S8x128_S8x128_0_0

/-- The one store covers the block. -/
theorem cover0_8 (p0 : Vec F S8x128 .f32) (y : S8x128.Idx) :
    ∃ pc ∈ ([⟨r0_8, p0⟩] : List (View.Piece (Elt F) S8x128 .f32)), y ∈ pc.1.set :=
  ⟨_, List.mem_singleton_self _, View.mem_set_unit_zero (S := S8x128) zeros0_r2 inb_S8x128_S8x128_0_0 y⟩

/-! ## The body's triple -/

set_option maxHeartbeats 1000000 in
/-- The body on whole staging memrefs, the eight inputs' at read contents `x0 … x7` and the output's at anything, runs
    to the continuation holding the inputs' as they were and the output's at `out0_8` of the inputs'. -/
theorem sound_kernel0 (c : Dev nD) (E : Set ℕ) (i : grid0.Coords) (arg1 : Memref sig .tc .vmem S8x128x1024 .f32) (harg1 : arg1.IsWhole) (arg2 : Memref sig .tc .vmem S8x128x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S8x128 .f32) (harg9 : arg9.IsWhole)
    (x0 x1 : Vec F S8x128x1024 .f32) (x2 : Vec F S1024x1024 .bf16) (x3 : Vec F S1024 .f32)
    (x4 : Vec F S1024x1024 .bf16) (x5 : Vec F S1024 .f32) (x6 : Vec F S1x1024 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__scores_kernel i arg1 harg1 arg2 harg2 arg3 harg3 arg4 harg4 arg5 harg5 arg6 harg6 arg7 harg7 arg8 harg8 arg9 harg9) K := by
  simp only [cc0__scores_kernel_eq_skeleton]; unfold cc0__scores_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (cover0_8 _), View.canon_unit_zero (S := S8x128) zeros0_r2]
  unfold out0_8
  simp only [View.readAt_eq_ld, View.ld_unit_zero (S := S8x128x1024) zeros0_r3, View.ld_unit_zero (S := S1024x1024) zeros0_r2,
    View.ld_unit_zero (S := S1024) zeros0_r1, View.ld_unit_zero (S := S1x1024) zeros0_r2, View.ld_unit_zero (S := S1x1) zeros0_r2]

/-! ## What the body finds in each input window's buffer

Each input window's current buffer holds the window's block at the point, whether or not the block was fetched there:
where it was not, the block index has not moved since the point before, and the body leaves the block in place. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 1000000 in
/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body, called at any point with each window's current buffer as the pipeline leaves it, returns with the
    buffers at `dat0`'s contents. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.FrameK.Reg1.lean ====
/-
  The context region (the second pallas_call), at any float instance and at any contents `V` of the core's buffers
  when the region is entered. The grid walks the sequence in 16 tiles of 256 positions. A scratch accumulator of
  shape [8, 1024] is carried from point to point: at the first point the body clears it; at every point it adds to it
  the tile's weighted sum of keys, sum over the tile's positions s of weights[b, s] * keys[b, s, h], and copies the
  accumulator into the output window's buffer, which the pipeline writes back once, after the last point.
  `acc1 n` is the accumulator (and the output buffer) after point `n`; the region's invariant between points says
  the scratch holds it.
-/
import proofs.«108339_j59459527246143_1_alg».proof.Proof.Gen.Kernel.Launch
import proofs.«108339_j59459527246143_1_alg».proof.Proof.Gen.Kernel.Skeleton
import proofs.«108339_j59459527246143_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: the tile's weighted sum of keys added to what the point before left, from the
    cleared accumulator at the first point. -/
def acc1 (c : Dev nD) : (n : ℕ) → n < cfg1.N → Vec F S8x1024 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (acc1 c n (Nat.lt_of_succ_lt hn))

theorem acc1_zero (c : Dev nD) (hn : 0 < cfg1.N) :
    acc1 V c 0 hn = k1_pay2 (iblk1 V c 0 ⟨0, hn⟩) (iblk1 V c 1 ⟨0, hn⟩) (k1_pay1 (F := F)) := rfl

theorem acc1_succ (c : Dev nD) (n : ℕ) (hn : n + 1 < cfg1.N) :
    acc1 V c (n + 1) hn = k1_pay2 (iblk1 V c 0 ⟨n + 1, hn⟩) (iblk1 V c 1 ⟨n + 1, hn⟩) (acc1 V c n (Nat.lt_of_succ_lt hn)) := rfl

/-- The core's scoped buffers that are neither a staging buffer of this region nor its scratch (the first region's
    staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f))

/-- The region's invariant before point `n`: before the first point every scoped buffer the region does not stage at
    some contents and the generator register at some state; afterwards the same with the scratch at the
    accumulator the point before left. -/
def PhiS1 (c : Dev nD) : (n : ℕ) → n ≤ cfg1.N → sProp 𝕄
  | 0, _ => Pipeline.ΦA spec1 c
  | n + 1, hn => iprop(others1 (F := F) c ∗ owns (c : Thread nD τ) (Memref.whole cc1_scratch0) fullShare (acc1 V c n hn) ∗ (∃ r, prngReg c r))

/-- The region's proof data on core `c`: the arrays as the region finds them; after the body at point `t` each input
    window's buffer still at its block and the output window's at the accumulator; the invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- The zero offsets of a rank-2 and of a rank-3 access, as constant functions. -/
theorem zeros1_r2 : (![0, 0] : Fin 2 → Nat) = fun _ => 0 := funext fun a => by fin_cases a <;> rfl
theorem zeros1_r3 : (![0, 0, 0] : Fin 3 → Nat) = fun _ => 0 := funext fun a => by fin_cases a <;> rfl

/-- A load through the whole-shape rectangle of what a list of stores left, the last of them through that rectangle,
    reads the last store's payload. -/
theorem readCov_cons_unit_zero1 {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The body's branch condition, from the grid coordinates. -/
abbrev cond1 (i : grid1.Coords) : Prop := (Scalar.cmpi .ne (Scalar.extui (Scalar.cmpi .eq (BitVec.ofNat 32 (i 0).val) 0#32)) 0#32) = 1#1

/-- It holds at the first point only. -/
theorem hcond1 : ∀ t : Fin cfg1.N, cond1 (grid1.coords t) ↔ t.val = 0 :=
  (by decide +kernel : ∀ t : Fin grid1.N, cond1 (grid1.coords t) ↔ t.val = 0)

set_option maxHeartbeats 1000000 in
/-- The body at the first point: the branch is taken, the accumulator is cleared whatever it held, the tile's weighted
    sum is added to it, and the output window's buffer receives a copy. -/
theorem sound_kernel1_first (c : Dev nD) (E : Set ℕ) (i : grid1.Coords)
    (arg1 : Memref sig .tc .vmem S8x256 .f32) (harg1 : arg1.IsWhole) (arg2 : Memref sig .tc .vmem S8x256x1024 .f32) (harg2 : arg2.IsWhole)
    (arg3 : Memref sig .tc .vmem S8x1024 .f32) (harg3 : arg3.IsWhole) (arg4 : Memref sig .tc .vmem S8x1024 .f32) (harg4 : arg4.IsWhole)
    (hc : cond1 i) (x0 : Vec F S8x256 .f32) (x1 : Vec F S8x256x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k1_pay2 x0 x1 (k1_pay1 (F := F)))
            ∗ owns (c : Thread nD τ) arg4 fullShare (k1_pay2 x0 x1 (k1_pay1 (F := F)))) -∗ K ⟨⟩))
      ⊢ wp frame (wpE (defs₀ (F := F)) Variants.none c none) E (cc1__context_kernel i arg1 harg1 arg2 harg2 arg3 harg3 arg4 harg4) K := by
  simp only [cc1__context_kernel_eq_skeleton]; unfold cc1__context_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero zeros1_r2 inb_S8x1024_S8x1024_0_0 y⟩), View.canon_unit_zero zeros1_r2]
    sl_unfold_words
    rw [readCov_cons_unit_zero1 _ zeros1_r2, View.readCov_unit_zero (S := S8x1024) _ zeros1_r2]
    simp only [View.readAt_eq_ld, View.ld_unit_zero (S := S8x256) zeros1_r2, View.ld_unit_zero (S := S8x256x1024) zeros1_r3]
  iexists _; isplitr
  swap; · iexact H3
  ipureintro
  sl_unfold_words
  rw [View.read_writes_eq_canon _ _ _ (fun y => ⟨_, List.mem_cons_self, View.mem_set_unit_zero zeros1_r2 inb_S8x1024_S8x1024_0_0 y⟩),
    View.canon_cons_unit_zero (S := S8x1024) zeros1_r2, View.readCov_unit_zero (S := S8x1024) _ zeros1_r2]
  simp only [View.readAt_eq_ld, View.ld_unit_zero (S := S8x256) zeros1_r2, View.ld_unit_zero (S := S8x256x1024) zeros1_r3]

set_option maxHeartbeats 1000000 in
/-- The body at a later point: the branch is not taken, the tile's weighted sum is added to what the accumulator
    held, and the output window's buffer receives a copy. -/
theorem sound_kernel1_later (c : Dev nD) (E : Set ℕ) (i : grid1.Coords)
    (arg1 : Memref sig .tc .vmem S8x256 .f32) (harg1 : arg1.IsWhole) (arg2 : Memref sig .tc .vmem S8x256x1024 .f32) (harg2 : arg2.IsWhole)
    (arg3 : Memref sig .tc .vmem S8x1024 .f32) (harg3 : arg3.IsWhole) (arg4 : Memref sig .tc .vmem S8x1024 .f32) (harg4 : arg4.IsWhole)
    (hc : ¬cond1 i) (x0 : Vec F S8x256 .f32) (x1 : Vec F S8x256x1024 .f32) (prev : Vec F S8x1024 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare prev
        ∗ (iprop(owns (c : Thread nD τ) arg1 fullShare x0 ∗ owns (c : Thread nD τ) arg2 fullShare x1
            ∗ owns (c : Thread nD τ) arg3 fullShare (k1_pay2 x0 x1 prev)
            ∗ owns (c : Thread nD τ) arg4 fullShare (k1_pay2 x0 x1 prev)) -∗ K ⟨⟩))
      ⊢ wp frame (wpE (defs₀ (F := F)) Variants.none c none) E (cc1__context_kernel i arg1 harg1 arg2 harg2 arg3 harg3 arg4 harg4) K := by
  simp only [cc1__context_kernel_eq_skeleton]; unfold cc1__context_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero zeros1_r2 inb_S8x1024_S8x1024_0_0 y⟩), View.canon_unit_zero zeros1_r2]
    sl_unfold_words
    rw [readCov_cons_unit_zero1 _ zeros1_r2]
    simp only [View.readAt_eq_ld, View.ld_unit_zero (S := S8x256) zeros1_r2, View.ld_unit_zero (S := S8x256x1024) zeros1_r3, View.ld_unit_zero (S := S8x1024) zeros1_r2]
  iexists _; isplitr
  swap; · iexact H3
  ipureintro
  sl_unfold_words
  rw [View.read_writes_eq_canon _ _ _ (fun y => ⟨_, List.mem_cons_self, View.mem_set_unit_zero zeros1_r2 inb_S8x1024_S8x1024_0_0 y⟩),
    View.canon_cons_unit_zero (S := S8x1024) zeros1_r2]
  simp only [View.readAt_eq_ld, View.ld_unit_zero (S := S8x256) zeros1_r2, View.ld_unit_zero (S := S8x256x1024) zeros1_r3, View.ld_unit_zero (S := S8x1024) zeros1_r2]

/-! ## The invariant, opened -/

theorem PhiS1_zero (c : Dev nD) (n : ℕ) (h : n ≤ cfg1.N) (hz : n = 0) : PhiS1 V c n h = Pipeline.ΦA spec1 c := by
  subst hz; rfl

/-- After point `n`: the scratch at that point's accumulator. -/
theorem PhiS1_succ (c : Dev nD) (n : ℕ) (hn : n < cfg1.N) :
    PhiS1 V c (n + 1) hn = iprop(others1 (F := F) c ∗ owns (c : Thread nD τ) (Memref.whole cc1_scratch0) fullShare (acc1 V c n hn) ∗ (∃ r, prngReg c r)) := rfl

/-- Before a point that is not the first: the scratch at the accumulator the point before left. -/
theorem PhiS1_pos (c : Dev nD) (n : ℕ) (h : n ≤ cfg1.N) (hz : n ≠ 0) :
    PhiS1 V c n h = iprop(others1 (F := F) c ∗ owns (c : Thread nD τ) (Memref.whole cc1_scratch0) fullShare (acc1 V c (n - 1) (by omega)) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the region is entered with gives the buffers it does not stage one by one, the scratch among them at some
    contents, and the generator register. -/
theorem PhiA1_open (c : Dev nD) :
    (Pipeline.ΦA spec1 c : sProp 𝕄) ⊢ iprop(others1 (F := F) c ∗ (∃ d, owns (c : Thread nD τ) (Memref.whole cc1_scratch0) fullShare d) ∗ (∃ r, prngReg c r)) := by
  unfold Pipeline.ΦA others1; rw [scopedRest1_eq]; simp only [owns_whole]
  iintro ⟨⟨H1, H2, H3, H4, H5, H6, H7, H8, H9, H10, H11, H12, H13⟩, Hg⟩
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]; · iexact H13
  iexact Hg

/-- And back. -/
theorem PhiA1_close (c : Dev nD) :
    iprop(others1 (F := F) c ∗ (∃ d, owns (c : Thread nD τ) (Memref.whole cc1_scratch0) fullShare d) ∗ (∃ r, prngReg c r)) ⊢ (Pipeline.ΦA spec1 c : sProp 𝕄) := by
  unfold Pipeline.ΦA others1; rw [scopedRest1_eq]; simp only [owns_whole]
  iintro ⟨⟨H1, H2, H3, H4, H5, H6, H7, H8, H9, H10, H11, H12⟩, H13, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ## The input windows' buffers -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
/-- The body at any point: the input windows' buffers hold their blocks; at the first point the invariant hands the
    scratch over at some contents and the branch clears it, at a later point it hands it over at the accumulator the
    point before left; either way the scratch and the output window's buffer end at this point's accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, after1_0, after1_1, after1_2]
  by_cases hz : t.val = 0
  · have hacc : acc1 V c t.val t.isLt = k1_pay2 (iblk1 V c 0 t) (iblk1 V c 1 t) (k1_pay1 (F := F)) := by
      obtain ⟨n, hn⟩ := t
      cases n with
      | zero => rfl
      | succ n => exact absurd hz (Nat.succ_ne_zero n)
    rw [PhiS1_castSucc V c t, PhiS1_zero V c _ _ hz, hacc]
    iintro ⟨HΦ, Ho, ⟨%d0, H0⟩, ⟨%d1, H1⟩, ⟨%d2, H2⟩⟩
    ihave HΦ' := PhiA1_open c $$ HΦ
    icases HΦ' with ⟨Hoth, HS, Hg⟩
    iapply (sound_kernel1_first c Set.univ (grid1.coords t) _ _ _ _ _ _ _ _ ((hcond1 t).mpr hz) (iblk1 V c 0 t) (iblk1 V c 1 t) _)
    isplitl [H0]; · iexact H0
    isplitl [H1]; · iexact H1
    isplitl [H2]; · iexists _; iexact H2
    isplitl [HS]; · iexact HS
    iintro ⟨H0, H1, H2, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    iexact H2
  · have hacc : acc1 V c t.val t.isLt = k1_pay2 (iblk1 V c 0 t) (iblk1 V c 1 t) (acc1 V c (t.val - 1) (Nat.lt_of_le_of_lt (Nat.sub_le _ _) t.isLt)) := by
      obtain ⟨n, hn⟩ := t
      cases n with
      | zero => exact absurd rfl hz
      | succ n => rfl
    rw [PhiS1_castSucc V c t, PhiS1_pos V c _ _ hz, hacc]
    iintro ⟨⟨Hoth, HS, Hg⟩, Ho, ⟨%d0, H0⟩, ⟨%d1, H1⟩, ⟨%d2, H2⟩⟩
    iapply (sound_kernel1_later c Set.univ (grid1.coords t) _ _ _ _ _ _ _ _ (fun h => hz ((hcond1 t).mp h)) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    iexact H2

/-- The body, called at any point with each window's current buffer as the pipeline leaves it and the scratch at the
    accumulator the point before left, returns with the buffers at `dat1`'s contents and the scratch at this point's. -/
theorem body_obligation1 (c : Dev nD) : BodyObligation (dat1 (F := F) V c) (defs₀ (F := F)) Variants.none () Set.univ := by
  intro t
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest and the generator register back, the accumulator's
    contents forgotten. -/
theorem hout1 (c : Dev nD) : (dat1 V c).Φ (Fin.last cfg1.N) ⊢ Pipeline.ΦA spec1 c := by
  have hN : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl,
    PhiS1_pos V c _ _ hN]
  refine BIBase.Entails.trans ?_ (PhiA1_close c)
  iintro ⟨Hoth, HS, Hg⟩
  isplitl [Hoth]; · iexact Hoth
  isplitl [HS]; · iexists _; iexact HS
  iexact Hg

end Cert.Kernel.Fr

end
-- ==== Proof.FrameK.RunDefs.lean ====
/-
  The contents of the core's buffers at each boundary between the five items of @main, at any float instance, as a fold
  from the launch memory: a host stretch applies its operations; a region leaves each of its arrays at what the
  pipeline's write-backs make of it (an input array as found) and every other buffer as it found it.
-/
import proofs.«108339_j59459527246143_1_alg».proof.Proof.Gen.Kernel.Launch
import proofs.«108339_j59459527246143_1_alg».proof.Proof.Gen.Kernel.Skeleton
import proofs.«108339_j59459527246143_1_alg».proof.Proof.Gen.Kernel.Points
import proofs.«108339_j59459527246143_1_alg».proof.Proof.FrameK.Reg0
import proofs.«108339_j59459527246143_1_alg».proof.Proof.FrameK.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the scores region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the scores region's exit: its arrays at what the pipeline leaves, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the host softmax (the context region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the context region's exit. -/
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
/-- After the last host stretch: what the program returns with. -/
abbrev W5 : Dev nD → Valuation τ sig (Elt F) := fun c => StableHlo.after hostOps2 (W4 m ρ c)

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

end Cert.Kernel.Fr

end
-- ==== Proof.FrameK.Run.lean ====
/-
  The whole run of @main at any float instance: five items in order — the host operations that transpose the two weight
  matrices and reshape the score bias; the scores region; the host softmax over the sequence axis; the context region;
  the two host reshapes of the results. The buffers' contents at each boundary are a fold from the launch memory
  (`W0` … `W5`): a host stretch applies its operations, a region leaves its output array at what its write-backs make
  of it and every other buffer as it found it. `run_main`: every weakly fair execution terminates and the final memory
  holds `W5` at every unscoped buffer; `frame`: in particular the eight argument arrays end as launched.
-/
import proofs.«108339_j59459527246143_1_alg».proof.Proof.Gen.Kernel.Launch
import proofs.«108339_j59459527246143_1_alg».proof.Proof.Gen.Kernel.Skeleton
import proofs.«108339_j59459527246143_1_alg».proof.Proof.Gen.Kernel.Points
import proofs.«108339_j59459527246143_1_alg».proof.Proof.Gen.Kernel.Regions
import proofs.«108339_j59459527246143_1_alg».proof.Proof.FrameK.Reg0
import proofs.«108339_j59459527246143_1_alg».proof.Proof.FrameK.Reg1
import proofs.«108339_j59459527246143_1_alg».proof.Proof.FrameK.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions' exits, as the rebuilding of the unscoped buffers takes them -/

/-- At the scores region's exit each of its arrays holds what the pipeline leaves and every other buffer what it held
    at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- The same at the context region's exit. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at the last boundary's contents `W5`, the
    generator register at some state. -/
abbrev Tₙ (c : Dev nD) : sProp 𝕄 := iprop(StableHlo.held (c : Thread nD τ) (Pipeline.ucRefs τ sig) (W5 m ρ c) ∗ ∃ r, prngReg c r)

/-- The last host stretch leaves every unscoped buffer at `W5` beside the generator register and the `owes`: the same,
    grouped as the last thread state beside the `owes`. -/
theorem hlast (c : Dev nD) :
    (iprop(StableHlo.held (c : Thread nD τ) (Pipeline.ucRefs τ sig) (W5 m ρ c)
        ∗ (∃ r, prngReg c r) ∗ ∃ W, owes (c : Thread nD τ) (0 : CellTallies nD τ sig Unit) W) : sProp 𝕄)
      ⊢ iprop((StableHlo.held (c : Thread nD τ) (Pipeline.ucRefs τ sig) (W5 m ρ c) ∗ ∃ r, prngReg c r)
        ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- The scores region over the thread state: entered from every unscoped buffer at `W1`, left at `W2`. Its arrays are
    split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The context region over the thread state: entered from every unscoped buffer at `W3`, left at `W4`. As the scores
    region, but its invariant between points carries the accumulator: what the region is entered with makes the
    invariant before the first point, and the invariant after the last point gives it back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine BIBase.Entails.trans ?_ (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments -/

/-- @main's five segments in order: a host segment per stretch from its boundary's contents, a region per kernel. -/
abbrev mainSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments: it is the chain of its five items, and the segments' run is that chain. -/
theorem main_run (c : Dev nD) : main (F := F) c = Pipeline.Seg.run (mainSegs m ρ) := (main_chain c).trans (by chain_rfl)

/-! ## The run -/

set_option backward.isDefEq.respectTransparency.types false in
/-- Every weakly fair execution of @main from memory `m` with zero counters terminates, nothing faulting, and the final
    memory holds `W5` at every unscoped buffer of every core. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- An unscoped TensorCore reference is among those the run tracks. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No host operation and no region writes an argument array: the fold at an argument walks back to the launch memory. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c)⟩) (run_main m ρ)

end Cert.Kernel.Fr

end
-- ==== Proof.FrameKI.Reg0.lean ====
/-
  The scores region (the first pallas_call), at any float instance and at any contents `V` of the core's buffers when
  the region is entered. At grid point `t` the body reads the point's block of 128 sequence positions of the queries
  and of the keys, the two transposed weight matrices, the two bias rows, the score weights and the score bias, and
  stores one [8, 128] block of scores: `out0_8` of the eight blocks read. This module states what each window's
  staging buffer holds after the body at each point (`dat0`) and proves that the body, run from those contents,
  leaves them (`body_obligation0`).
-/
import proofs.«108339_j59459527246143_1_alg».proof.Proof.Gen.KernelIdeal.Launch
import proofs.«108339_j59459527246143_1_alg».proof.Proof.Gen.KernelIdeal.Skeleton
import proofs.«108339_j59459527246143_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The [8, 128] block of scores the body stores, from the eight blocks it reads (in window order: queries, keys,
    transposed query weights, query bias, transposed key weights, key bias, score weights, score bias). -/
def out0_8 (x0 x1 : Vec F S8x128x1024 .f32) (x2 : Vec F S1024x1024 .bf16) (x3 : Vec F S1024 .f32)
    (x4 : Vec F S1024x1024 .bf16) (x5 : Vec F S1024 .f32) (x6 : Vec F S1x1024 .f32) (x7 : Vec F S1x1 .f32) : Vec F S8x128 .f32 :=
  k0_pay1 x0 x1 x2 x4 x3 x5 x6 x7

/-- The stored block is the body's arithmetic of the blocks read. -/
theorem out0_8_eq (x0 x1 : Vec F S8x128x1024 .f32) (x2 : Vec F S1024x1024 .bf16) (x3 : Vec F S1024 .f32)
    (x4 : Vec F S1024x1024 .bf16) (x5 : Vec F S1024 .f32) (x6 : Vec F S1x1024 .f32) (x7 : Vec F S1x1 .f32) :
    out0_8 x0 x1 x2 x3 x4 x5 x6 x7 = k0_pay1 x0 x1 x2 x4 x3 x5 x6 x7 := rfl

/-- The region's proof data on core `c`: the arrays as the region finds them; after the body at point `t` each input
    window's buffer still at its block and the output window's at the block of scores; nothing carried between points. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t
    = out0_8 (iblk0 V c 0 t) (iblk0 V c 1 t) (iblk0 V c 2 t) (iblk0 V c 3 t) (iblk0 V c 4 t) (iblk0 V c 5 t) (iblk0 V c 6 t) (iblk0 V c 7 t) := by
  dsimp only [dat0]

/-! ## The body's accesses -/

theorem zeros0_r1 : (![0] : Fin 1 → Nat) = fun _ => 0 := funext fun a => by fin_cases a <;> rfl
theorem zeros0_r2 : (![0, 0] : Fin 2 → Nat) = fun _ => 0 := funext fun a => by fin_cases a <;> rfl
theorem zeros0_r3 : (![0, 0, 0] : Fin 3 → Nat) = fun _ => 0 := funext fun a => by fin_cases a <;> rfl

/-- The one rectangle the body stores through: the whole [8, 128] block. -/
abbrev r0_8 : Rect S8x128 := Rect.unit (s := S8x128) ![0, 0] S8x128.size inb_S8x128_S8x128_0_0

/-- The one store covers the block. -/
theorem cover0_8 (p0 : Vec F S8x128 .f32) (y : S8x128.Idx) :
    ∃ pc ∈ ([⟨r0_8, p0⟩] : List (View.Piece (Elt F) S8x128 .f32)), y ∈ pc.1.set :=
  ⟨_, List.mem_singleton_self _, View.mem_set_unit_zero (S := S8x128) zeros0_r2 inb_S8x128_S8x128_0_0 y⟩

/-! ## The body's triple -/

set_option maxHeartbeats 1000000 in
/-- The body on whole staging memrefs, the eight inputs' at read contents `x0 … x7` and the output's at anything, runs
    to the continuation holding the inputs' as they were and the output's at `out0_8` of the inputs'. -/
theorem sound_kernel0 (c : Dev nD) (E : Set ℕ) (i : grid0.Coords) (arg1 : Memref sig .tc .vmem S8x128x1024 .f32) (harg1 : arg1.IsWhole) (arg2 : Memref sig .tc .vmem S8x128x1024 .f32) (harg2 : arg2.IsWhole) (arg3 : Memref sig .tc .vmem S1024x1024 .bf16) (harg3 : arg3.IsWhole) (arg4 : Memref sig .tc .vmem S1024 .f32) (harg4 : arg4.IsWhole) (arg5 : Memref sig .tc .vmem S1024x1024 .bf16) (harg5 : arg5.IsWhole) (arg6 : Memref sig .tc .vmem S1024 .f32) (harg6 : arg6.IsWhole) (arg7 : Memref sig .tc .vmem S1x1024 .f32) (harg7 : arg7.IsWhole) (arg8 : Memref sig .tc .vmem S1x1 .f32) (harg8 : arg8.IsWhole) (arg9 : Memref sig .tc .vmem S8x128 .f32) (harg9 : arg9.IsWhole)
    (x0 x1 : Vec F S8x128x1024 .f32) (x2 : Vec F S1024x1024 .bf16) (x3 : Vec F S1024 .f32)
    (x4 : Vec F S1024x1024 .bf16) (x5 : Vec F S1024 .f32) (x6 : Vec F S1x1024 .f32) (x7 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7)) -∗ K ⟨⟩))
      ⊢ wp frame (wpE (defs₀ (F := F)) Variants.none c none) E (cc0__scores_kernel i arg1 harg1 arg2 harg2 arg3 harg3 arg4 harg4 arg5 harg5 arg6 harg6 arg7 harg7 arg8 harg8 arg9 harg9) K := by
  simp only [cc0__scores_kernel_eq_skeleton]; unfold cc0__scores_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  iexists _; isplitr
  swap; · iexact H8
  ipureintro
  rw [View.read_writes_eq_canon _ _ _ (cover0_8 _), View.canon_unit_zero (S := S8x128) zeros0_r2]
  unfold out0_8
  simp only [View.readAt_eq_ld, View.ld_unit_zero (S := S8x128x1024) zeros0_r3, View.ld_unit_zero (S := S1024x1024) zeros0_r2,
    View.ld_unit_zero (S := S1024) zeros0_r1, View.ld_unit_zero (S := S1x1024) zeros0_r2, View.ld_unit_zero (S := S1x1) zeros0_r2]

/-! ## What the body finds in each input window's buffer

Each input window's current buffer holds the window's block at the point, whether or not the block was fetched there:
where it was not, the block index has not moved since the point before, and the body leaves the block in place. -/

theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl)
    (fun t => by rw [after0_7]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

set_option maxHeartbeats 1000000 in
/-- The body at any point: the inputs' memrefs hold their blocks, so the body's triple applies; the invariant and the
    core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound_kernel0 c Set.univ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body, called at any point with each window's current buffer as the pipeline leaves it, returns with the
    buffers at `dat0`'s contents. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.FrameKI.Reg1.lean ====
/-
  The context region (the second pallas_call), at any float instance and at any contents `V` of the core's buffers
  when the region is entered. The grid walks the sequence in 16 tiles of 256 positions. A scratch accumulator of
  shape [8, 1024] is carried from point to point: at the first point the body clears it; at every point it adds to it
  the tile's weighted sum of keys, sum over the tile's positions s of weights[b, s] * keys[b, s, h], and copies the
  accumulator into the output window's buffer, which the pipeline writes back once, after the last point.
  `acc1 n` is the accumulator (and the output buffer) after point `n`; the region's invariant between points says
  the scratch holds it.
-/
import proofs.«108339_j59459527246143_1_alg».proof.Proof.Gen.KernelIdeal.Launch
import proofs.«108339_j59459527246143_1_alg».proof.Proof.Gen.KernelIdeal.Skeleton
import proofs.«108339_j59459527246143_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The accumulator after point `n`: the tile's weighted sum of keys added to what the point before left, from the
    cleared accumulator at the first point. -/
def acc1 (c : Dev nD) : (n : ℕ) → n < cfg1.N → Vec F S8x1024 .f32
  | 0, hn => k1_pay2 (iblk1 V c 0 ⟨0, hn⟩) (iblk1 V c 1 ⟨0, hn⟩) (k1_pay1 (F := F))
  | n + 1, hn => k1_pay2 (iblk1 V c 0 ⟨n + 1, hn⟩) (iblk1 V c 1 ⟨n + 1, hn⟩) (acc1 c n (Nat.lt_of_succ_lt hn))

theorem acc1_zero (c : Dev nD) (hn : 0 < cfg1.N) :
    acc1 V c 0 hn = k1_pay2 (iblk1 V c 0 ⟨0, hn⟩) (iblk1 V c 1 ⟨0, hn⟩) (k1_pay1 (F := F)) := rfl

theorem acc1_succ (c : Dev nD) (n : ℕ) (hn : n + 1 < cfg1.N) :
    acc1 V c (n + 1) hn = k1_pay2 (iblk1 V c 0 ⟨n + 1, hn⟩) (iblk1 V c 1 ⟨n + 1, hn⟩) (acc1 V c n (Nat.lt_of_succ_lt hn)) := rfl

/-- The core's scoped buffers that are neither a staging buffer of this region nor its scratch (the first region's
    staging buffers), each whole at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg8_0), ((c : Thread nD τ).loc cc0_stg8_0) ↦{fullShare} f) ∗ (∃ f : Buf (Elt F) ((c : Thread nD τ).loc cc0_stg8_1), ((c : Thread nD τ).loc cc0_stg8_1) ↦{fullShare} f))

/-- The region's invariant before point `n`: before the first point every scoped buffer the region does not stage at
    some contents and the generator register at some state; afterwards the same with the scratch at the
    accumulator the point before left. -/
def PhiS1 (c : Dev nD) : (n : ℕ) → n ≤ cfg1.N → sProp 𝕄
  | 0, _ => Pipeline.ΦA spec1 c
  | n + 1, hn => iprop(others1 (F := F) c ∗ owns (c : Thread nD τ) (Memref.whole cc1_scratch0) fullShare (acc1 V c n hn) ∗ (∃ r, prngReg c r))

/-- The region's proof data on core `c`: the arrays as the region finds them; after the body at point `t` each input
    window's buffer still at its block and the output window's at the accumulator; the invariant `PhiS1`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = acc1 V c t.val t.isLt := by dsimp only [dat1]

/-- The zero offsets of a rank-2 and of a rank-3 access, as constant functions. -/
theorem zeros1_r2 : (![0, 0] : Fin 2 → Nat) = fun _ => 0 := funext fun a => by fin_cases a <;> rfl
theorem zeros1_r3 : (![0, 0, 0] : Fin 3 → Nat) = fun _ => 0 := funext fun a => by fin_cases a <;> rfl

/-- A load through the whole-shape rectangle of what a list of stores left, the last of them through that rectangle,
    reads the last store's payload. -/
theorem readCov_cons_unit_zero1 {Val : EltTy → Type} [∀ e, Nonempty (Val e)] {S : Shape} {e : EltTy} {sig' : RefSig} {κ : Kind} {sp : Space}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- The body's branch condition, from the grid coordinates. -/
abbrev cond1 (i : grid1.Coords) : Prop := (Scalar.cmpi .ne (Scalar.extui (Scalar.cmpi .eq (BitVec.ofNat 32 (i 0).val) 0#32)) 0#32) = 1#1

/-- It holds at the first point only. -/
theorem hcond1 : ∀ t : Fin cfg1.N, cond1 (grid1.coords t) ↔ t.val = 0 :=
  (by decide +kernel : ∀ t : Fin grid1.N, cond1 (grid1.coords t) ↔ t.val = 0)

set_option maxHeartbeats 1000000 in
/-- The body at the first point: the branch is taken, the accumulator is cleared whatever it held, the tile's weighted
    sum is added to it, and the output window's buffer receives a copy. -/
theorem sound_kernel1_first (c : Dev nD) (E : Set ℕ) (i : grid1.Coords)
    (arg1 : Memref sig .tc .vmem S8x256 .f32) (harg1 : arg1.IsWhole) (arg2 : Memref sig .tc .vmem S8x256x1024 .f32) (harg2 : arg2.IsWhole)
    (arg3 : Memref sig .tc .vmem S8x1024 .f32) (harg3 : arg3.IsWhole) (arg4 : Memref sig .tc .vmem S8x1024 .f32) (harg4 : arg4.IsWhole)
    (hc : cond1 i) (x0 : Vec F S8x256 .f32) (x1 : Vec F S8x256x1024 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (k1_pay2 x0 x1 (k1_pay1 (F := F)))
            ∗ owns (c : Thread nD τ) arg4 fullShare (k1_pay2 x0 x1 (k1_pay1 (F := F)))) -∗ K ⟨⟩))
      ⊢ wp frame (wpE (defs₀ (F := F)) Variants.none c none) E (cc1__context_kernel i arg1 harg1 arg2 harg2 arg3 harg3 arg4 harg4) K := by
  simp only [cc1__context_kernel_eq_skeleton]; unfold cc1__context_kernel_skel
  unfold owns
  iintro ⟨⟨%f0, %hf0, H0⟩, ⟨%f1, %hf1, H1⟩, ⟨%d2, %f2, -, H2⟩, ⟨%d3, %f3, -, H3⟩, Hk⟩
  subst hf0; subst hf1
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero zeros1_r2 inb_S8x1024_S8x1024_0_0 y⟩), View.canon_unit_zero zeros1_r2]
    sl_unfold_words
    rw [readCov_cons_unit_zero1 _ zeros1_r2, View.readCov_unit_zero (S := S8x1024) _ zeros1_r2]
    simp only [View.readAt_eq_ld, View.ld_unit_zero (S := S8x256) zeros1_r2, View.ld_unit_zero (S := S8x256x1024) zeros1_r3]
  iexists _; isplitr
  swap; · iexact H3
  ipureintro
  sl_unfold_words
  rw [View.read_writes_eq_canon _ _ _ (fun y => ⟨_, List.mem_cons_self, View.mem_set_unit_zero zeros1_r2 inb_S8x1024_S8x1024_0_0 y⟩),
    View.canon_cons_unit_zero (S := S8x1024) zeros1_r2, View.readCov_unit_zero (S := S8x1024) _ zeros1_r2]
  simp only [View.readAt_eq_ld, View.ld_unit_zero (S := S8x256) zeros1_r2, View.ld_unit_zero (S := S8x256x1024) zeros1_r3]

set_option maxHeartbeats 1000000 in
/-- The body at a later point: the branch is not taken, the tile's weighted sum is added to what the accumulator
    held, and the output window's buffer receives a copy. -/
theorem sound_kernel1_later (c : Dev nD) (E : Set ℕ) (i : grid1.Coords)
    (arg1 : Memref sig .tc .vmem S8x256 .f32) (harg1 : arg1.IsWhole) (arg2 : Memref sig .tc .vmem S8x256x1024 .f32) (harg2 : arg2.IsWhole)
    (arg3 : Memref sig .tc .vmem S8x1024 .f32) (harg3 : arg3.IsWhole) (arg4 : Memref sig .tc .vmem S8x1024 .f32) (harg4 : arg4.IsWhole)
    (hc : ¬cond1 i) (x0 : Vec F S8x256 .f32) (x1 : Vec F S8x256x1024 .f32) (prev : Vec F S8x1024 .f32) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare prev
        ∗ (iprop(owns (c : Thread nD τ) arg1 fullShare x0 ∗ owns (c : Thread nD τ) arg2 fullShare x1
            ∗ owns (c : Thread nD τ) arg3 fullShare (k1_pay2 x0 x1 prev)
            ∗ owns (c : Thread nD τ) arg4 fullShare (k1_pay2 x0 x1 prev)) -∗ K ⟨⟩))
      ⊢ wp frame (wpE (defs₀ (F := F)) Variants.none c none) E (cc1__context_kernel i arg1 harg1 arg2 harg2 arg3 harg3 arg4 harg4) K := by
  simp only [cc1__context_kernel_eq_skeleton]; unfold cc1__context_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := exact hc)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    rw [View.read_writes_eq_canon _ _ _ (fun y => ⟨_, List.mem_singleton_self _, View.mem_set_unit_zero zeros1_r2 inb_S8x1024_S8x1024_0_0 y⟩), View.canon_unit_zero zeros1_r2]
    sl_unfold_words
    rw [readCov_cons_unit_zero1 _ zeros1_r2]
    simp only [View.readAt_eq_ld, View.ld_unit_zero (S := S8x256) zeros1_r2, View.ld_unit_zero (S := S8x256x1024) zeros1_r3, View.ld_unit_zero (S := S8x1024) zeros1_r2]
  iexists _; isplitr
  swap; · iexact H3
  ipureintro
  sl_unfold_words
  rw [View.read_writes_eq_canon _ _ _ (fun y => ⟨_, List.mem_cons_self, View.mem_set_unit_zero zeros1_r2 inb_S8x1024_S8x1024_0_0 y⟩),
    View.canon_cons_unit_zero (S := S8x1024) zeros1_r2]
  simp only [View.readAt_eq_ld, View.ld_unit_zero (S := S8x256) zeros1_r2, View.ld_unit_zero (S := S8x256x1024) zeros1_r3, View.ld_unit_zero (S := S8x1024) zeros1_r2]

/-! ## The invariant, opened -/

theorem PhiS1_zero (c : Dev nD) (n : ℕ) (h : n ≤ cfg1.N) (hz : n = 0) : PhiS1 V c n h = Pipeline.ΦA spec1 c := by
  subst hz; rfl

/-- After point `n`: the scratch at that point's accumulator. -/
theorem PhiS1_succ (c : Dev nD) (n : ℕ) (hn : n < cfg1.N) :
    PhiS1 V c (n + 1) hn = iprop(others1 (F := F) c ∗ owns (c : Thread nD τ) (Memref.whole cc1_scratch0) fullShare (acc1 V c n hn) ∗ (∃ r, prngReg c r)) := rfl

/-- Before a point that is not the first: the scratch at the accumulator the point before left. -/
theorem PhiS1_pos (c : Dev nD) (n : ℕ) (h : n ≤ cfg1.N) (hz : n ≠ 0) :
    PhiS1 V c n h = iprop(others1 (F := F) c ∗ owns (c : Thread nD τ) (Memref.whole cc1_scratch0) fullShare (acc1 V c (n - 1) (by omega)) ∗ (∃ r, prngReg c r)) := by
  cases n with
  | zero => exact absurd rfl hz
  | succ n => rfl

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the region is entered with gives the buffers it does not stage one by one, the scratch among them at some
    contents, and the generator register. -/
theorem PhiA1_open (c : Dev nD) :
    (Pipeline.ΦA spec1 c : sProp 𝕄) ⊢ iprop(others1 (F := F) c ∗ (∃ d, owns (c : Thread nD τ) (Memref.whole cc1_scratch0) fullShare d) ∗ (∃ r, prngReg c r)) := by
  unfold Pipeline.ΦA others1; rw [scopedRest1_eq]; simp only [owns_whole]
  iintro ⟨⟨H1, H2, H3, H4, H5, H6, H7, H8, H9, H10, H11, H12, H13⟩, Hg⟩
  isplitl [H1 H2 H3 H4 H5 H6 H7 H8 H9 H10 H11 H12]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  isplitl [H13]; · iexact H13
  iexact Hg

/-- And back. -/
theorem PhiA1_close (c : Dev nD) :
    iprop(others1 (F := F) c ∗ (∃ d, owns (c : Thread nD τ) (Memref.whole cc1_scratch0) fullShare d) ∗ (∃ r, prngReg c r)) ⊢ (Pipeline.ΦA spec1 c : sProp 𝕄) := by
  unfold Pipeline.ΦA others1; rw [scopedRest1_eq]; simp only [owns_whole]
  iintro ⟨⟨H1, H2, H3, H4, H5, H6, H7, H8, H9, H10, H11, H12⟩, H13, Hg⟩
  isplitr [Hg]
  swap; · iexact Hg
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-! ## The input windows' buffers -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)

theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

set_option maxHeartbeats 1000000 in
/-- The body at any point: the input windows' buffers hold their blocks; at the first point the invariant hands the
    scratch over at some contents and the branch clears it, at a later point it hands it over at the accumulator the
    point before left; either way the scratch and the output window's buffer end at this point's accumulator. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ, after1_0, after1_1, after1_2]
  by_cases hz : t.val = 0
  · have hacc : acc1 V c t.val t.isLt = k1_pay2 (iblk1 V c 0 t) (iblk1 V c 1 t) (k1_pay1 (F := F)) := by
      obtain ⟨n, hn⟩ := t
      cases n with
      | zero => rfl
      | succ n => exact absurd hz (Nat.succ_ne_zero n)
    rw [PhiS1_castSucc V c t, PhiS1_zero V c _ _ hz, hacc]
    iintro ⟨HΦ, Ho, ⟨%d0, H0⟩, ⟨%d1, H1⟩, ⟨%d2, H2⟩⟩
    ihave HΦ' := PhiA1_open c $$ HΦ
    icases HΦ' with ⟨Hoth, HS, Hg⟩
    iapply (sound_kernel1_first c Set.univ (grid1.coords t) _ _ _ _ _ _ _ _ ((hcond1 t).mpr hz) (iblk1 V c 0 t) (iblk1 V c 1 t) _)
    isplitl [H0]; · iexact H0
    isplitl [H1]; · iexact H1
    isplitl [H2]; · iexists _; iexact H2
    isplitl [HS]; · iexact HS
    iintro ⟨H0, H1, H2, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    iexact H2
  · have hacc : acc1 V c t.val t.isLt = k1_pay2 (iblk1 V c 0 t) (iblk1 V c 1 t) (acc1 V c (t.val - 1) (Nat.lt_of_le_of_lt (Nat.sub_le _ _) t.isLt)) := by
      obtain ⟨n, hn⟩ := t
      cases n with
      | zero => exact absurd rfl hz
      | succ n => rfl
    rw [PhiS1_castSucc V c t, PhiS1_pos V c _ _ hz, hacc]
    iintro ⟨⟨Hoth, HS, Hg⟩, Ho, ⟨%d0, H0⟩, ⟨%d1, H1⟩, ⟨%d2, H2⟩⟩
    iapply (sound_kernel1_later c Set.univ (grid1.coords t) _ _ _ _ _ _ _ _ (fun h => hz ((hcond1 t).mp h)) (iblk1 V c 0 t) (iblk1 V c 1 t) _ _)
    isplitl [H0]; · iexact H0
    isplitl [H1]; · iexact H1
    isplitl [H2]; · iexists _; iexact H2
    isplitl [HS]; · iexact HS
    iintro ⟨H0, H1, H2, HS⟩
    isplitl [Hoth HS Hg]
    · isplitl [Hoth]; · iexact Hoth
      isplitl [HS]; · iexact HS
      iexact Hg
    isplitl [Ho]; · iexact Ho
    isplitl [H0]; · iexact H0
    isplitl [H1]; · iexact H1
    iexact H2

/-- The body, called at any point with each window's current buffer as the pipeline leaves it and the scratch at the
    accumulator the point before left, returns with the buffers at `dat1`'s contents and the scratch at this point's. -/
theorem body_obligation1 (c : Dev nD) : BodyObligation (dat1 (F := F) V c) (defs₀ (F := F)) Variants.none () Set.univ := by
  intro t
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the scoped rest and the generator register back, the accumulator's
    contents forgotten. -/
theorem hout1 (c : Dev nD) : (dat1 V c).Φ (Fin.last cfg1.N) ⊢ Pipeline.ΦA spec1 c := by
  have hN : (Fin.last cfg1.N).val ≠ 0 := by rw [Fin.val_last]; have : cfg1.N = 16 := N_1; omega
  rw [show (dat1 V c).Φ (Fin.last cfg1.N) = PhiS1 V c (Fin.last cfg1.N).val (Nat.le_of_lt_succ (Fin.last cfg1.N).isLt) from rfl,
    PhiS1_pos V c _ _ hN]
  refine BIBase.Entails.trans ?_ (PhiA1_close c)
  iintro ⟨Hoth, HS, Hg⟩
  isplitl [Hoth]; · iexact Hoth
  isplitl [HS]; · iexists _; iexact HS
  iexact Hg

end Cert.KernelIdeal.Fr

end
-- ==== Proof.FrameKI.RunDefs.lean ====
/-
  The contents of the core's buffers at each boundary between the five items of @main, at any float instance, as a fold
  from the launch memory: a host stretch applies its operations; a region leaves each of its arrays at what the
  pipeline's write-backs make of it (an input array as found) and every other buffer as it found it.
-/
import proofs.«108339_j59459527246143_1_alg».proof.Proof.Gen.KernelIdeal.Launch
import proofs.«108339_j59459527246143_1_alg».proof.Proof.Gen.KernelIdeal.Skeleton
import proofs.«108339_j59459527246143_1_alg».proof.Proof.Gen.KernelIdeal.Points
import proofs.«108339_j59459527246143_1_alg».proof.Proof.FrameKI.Reg0
import proofs.«108339_j59459527246143_1_alg».proof.Proof.FrameKI.Reg1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the first host stretch (the scores region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
/-- At the scores region's exit: its arrays at what the pipeline leaves, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the host softmax (the context region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the context region's exit. -/
def W4 (c : Dev nD) : Valuation τ sig (Elt F) :=
  Pipeline.withArrays spec1 c (W3 m ρ c) fun w => (dat1 (V3 m ρ) c).arrAt w cfg1.N
abbrev V4 : (c : Dev nD) → (b : Ref sig .tc) → Buf (Elt F) ((c : Thread nD τ).loc b) := fun c b => W4 m ρ c b
/-- After the last host stretch: what the program returns with. -/
abbrev W5 : Dev nD → Valuation τ sig (Elt F) := fun c => StableHlo.after hostOps2 (W4 m ρ c)

theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb

end Cert.KernelIdeal.Fr

end
-- ==== Proof.FrameKI.Run.lean ====
/-
  The whole run of @main at any float instance: five items in order — the host operations that transpose the two weight
  matrices and reshape the score bias; the scores region; the host softmax over the sequence axis; the context region;
  the two host reshapes of the results. The buffers' contents at each boundary are a fold from the launch memory
  (`W0` … `W5`): a host stretch applies its operations, a region leaves its output array at what its write-backs make
  of it and every other buffer as it found it. `run_main`: every weakly fair execution terminates and the final memory
  holds `W5` at every unscoped buffer; `frame`: in particular the eight argument arrays end as launched.
-/
import proofs.«108339_j59459527246143_1_alg».proof.Proof.Gen.KernelIdeal.Launch
import proofs.«108339_j59459527246143_1_alg».proof.Proof.Gen.KernelIdeal.Skeleton
import proofs.«108339_j59459527246143_1_alg».proof.Proof.Gen.KernelIdeal.Points
import proofs.«108339_j59459527246143_1_alg».proof.Proof.Gen.KernelIdeal.Regions
import proofs.«108339_j59459527246143_1_alg».proof.Proof.FrameKI.Reg0
import proofs.«108339_j59459527246143_1_alg».proof.Proof.FrameKI.Reg1
import proofs.«108339_j59459527246143_1_alg».proof.Proof.FrameKI.RunDefs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions' exits, as the rebuilding of the unscoped buffers takes them -/

/-- At the scores region's exit each of its arrays holds what the pipeline leaves and every other buffer what it held
    at entry. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- The same at the context region's exit. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it leaves
    those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- The last thread state without the `owes`: every unscoped buffer at the last boundary's contents `W5`, the
    generator register at some state. -/
abbrev Tₙ (c : Dev nD) : sProp 𝕄 := iprop(StableHlo.held (c : Thread nD τ) (Pipeline.ucRefs τ sig) (W5 m ρ c) ∗ ∃ r, prngReg c r)

/-- The last host stretch leaves every unscoped buffer at `W5` beside the generator register and the `owes`: the same,
    grouped as the last thread state beside the `owes`. -/
theorem hlast (c : Dev nD) :
    (iprop(StableHlo.held (c : Thread nD τ) (Pipeline.ucRefs τ sig) (W5 m ρ c)
        ∗ (∃ r, prngReg c r) ∗ ∃ W, owes (c : Thread nD τ) (0 : CellTallies nD τ sig Unit) W) : sProp 𝕄)
      ⊢ iprop((StableHlo.held (c : Thread nD τ) (Pipeline.ucRefs τ sig) (W5 m ρ c) ∗ ∃ r, prngReg c r)
        ∗ ∃ W, owes (c : Thread nD τ) (0 : CellTallies nD τ sig Unit) W) := by
  iintro ⟨Hh, Hp, HO⟩
  isplitl [Hh Hp]
  · isplitl [Hh]; · iexact Hh
    iexact Hp
  iexact HO

/-! ## The regions as segments -/

set_option backward.isDefEq.respectTransparency.types false in
/-- The scores region over the thread state: entered from every unscoped buffer at `W1`, left at `W2`. Its arrays are
    split out of the unscoped buffers and put back at the exit contents; the generator register goes into the
    region's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The context region over the thread state: entered from every unscoped buffer at `W3`, left at `W4`. As the scores
    region, but its invariant between points carries the accumulator: what the region is entered with makes the
    invariant before the first point, and the invariant after the last point gives it back. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    refine BIBase.Entails.trans ?_ (hin1 (V3 m ρ) c)
    unfold Pipeline.ΦA
    iintro ⟨Hp, -, Hr⟩
    isplitl [Hr]; · iexact Hr
    iexact Hp
  hout c := by
    rw [Pipeline.ownSems0_none, show (pdats m ρ 1 c).Φ (Fin.last _) = (dat1 (V3 m ρ) c).Φ (Fin.last cfg1.N) from rfl]
    refine (hout1 (V3 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments -/

/-- @main's five segments in order: a host segment per stretch from its boundary's contents, a region per kernel. -/
abbrev mainSegs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments: it is the chain of its five items, and the segments' run is that chain. -/
theorem main_run (c : Dev nD) : main (F := F) c = Pipeline.Seg.run (mainSegs m ρ) := (main_chain c).trans (by chain_rfl)

/-! ## The run -/

set_option backward.isDefEq.respectTransparency.types false in
/-- Every weakly fair execution of @main from memory `m` with zero counters terminates, nothing faulting, and the final
    memory holds `W5` at every unscoped buffer of every core. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (mainSegs m ρ)
    (fun c Q => by rw [main_run m ρ c])
    (by simp only [mainSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => hlast m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

/-- An unscoped TensorCore reference is among those the run tracks. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No host operation and no region writes an argument array: the fold at an argument walks back to the launch memory. -/
theorem W5_main_arg0 (c : Dev nD) : W5 m ρ c (Proc.devRef .tc main_arg0) = m ((c : Thread nD τ).loc main_arg0) :=
  calc W5 m ρ c (Proc.devRef .tc main_arg0)
    _ = W4 m ρ c (Proc.devRef .tc main_arg0) := StableHlo.after_of_writes_sub hostOps2 _ hostOps2_writes (by decide)
    _ = W3 m ρ c (Proc.devRef .tc main_arg0) := W4_of_ne m ρ c main_arg0 (by decide)
    _ = W2 m ρ c (Proc.devRef .tc main_arg0) := StableHlo.after_of_writes_sub hostOps1 _ hostOps1_writes (by decide)
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (by decide)
    _ = m ((c : Thread nD τ).loc main_arg0) := rfl
theorem W5_main_arg1 (c : Dev nD) : W5 m ρ c (Proc.devRef .tc main_arg1) = m ((c : Thread nD τ).loc main_arg1) :=
  calc W5 m ρ c (Proc.devRef .tc main_arg1)
    _ = W4 m ρ c (Proc.devRef .tc main_arg1) := StableHlo.after_of_writes_sub hostOps2 _ hostOps2_writes (by decide)
    _ = W3 m ρ c (Proc.devRef .tc main_arg1) := (W4_arr m ρ c 1).trans (((dat1 (V3 m ρ) c).arrAt_in 1 rfl _).trans (A_eq1 (V3 m ρ) c 1))
    _ = W2 m ρ c (Proc.devRef .tc main_arg1) := StableHlo.after_of_writes_sub hostOps1 _ hostOps1_writes (by decide)
    _ = W1 m ρ c (Proc.devRef .tc main_arg1) := (W2_arr m ρ c 1).trans (((dat0 (V1 m ρ) c).arrAt_in 1 rfl _).trans (A_eq0 (V1 m ρ) c 1))
    _ = W0 m ρ c (Proc.devRef .tc main_arg1) := StableHlo.after_of_writes_sub hostOps0 _ hostOps0_writes (by decide)
    _ = m ((c : Thread nD τ).loc main_arg1) := rfl
theorem W5_main_arg2 (c : Dev nD) : W5 m ρ c (Proc.devRef .tc main_arg2) = m ((c : Thread nD τ).loc main_arg2) :=
  calc W5 m ρ c (Proc.devRef .tc main_arg2)
    _ = W4 m ρ c (Proc.devRef .tc main_arg2) := StableHlo.after_of_writes_sub hostOps2 _ hostOps2_writes (by decide)
    _ = W3 m ρ c (Proc.devRef .tc main_arg2) := W4_of_ne m ρ c main_arg2 (by decide)
    _ = W2 m ρ c (Proc.devRef .tc main_arg2) := StableHlo.after_of_writes_sub hostOps1 _ hostOps1_writes (by decide)
    _ = W1 m ρ c (Proc.devRef .tc main_arg2) := W2_of_ne m ρ c main_arg2 (by decide)
    _ = W0 m ρ c (Proc.devRef .tc main_arg2) := StableHlo.after_of_writes_sub hostOps0 _ hostOps0_writes (by decide)
    _ = m ((c : Thread nD τ).loc main_arg2) := rfl
theorem W5_main_arg3 (c : Dev nD) : W5 m ρ c (Proc.devRef .tc main_arg3) = m ((c : Thread nD τ).loc main_arg3) :=
  calc W5 m ρ c (Proc.devRef .tc main_arg3)
    _ = W4 m ρ c (Proc.devRef .tc main_arg3) := StableHlo.after_of_writes_sub hostOps2 _ hostOps2_writes (by decide)
    _ = W3 m ρ c (Proc.devRef .tc main_arg3) := W4_of_ne m ρ c main_arg3 (by decide)
    _ = W2 m ρ c (Proc.devRef .tc main_arg3) := StableHlo.after_of_writes_sub hostOps1 _ hostOps1_writes (by decide)
    _ = W1 m ρ c (Proc.devRef .tc main_arg3) := (W2_arr m ρ c 3).trans (((dat0 (V1 m ρ) c).arrAt_in 3 rfl _).trans (A_eq0 (V1 m ρ) c 3))
    _ = W0 m ρ c (Proc.devRef .tc main_arg3) := StableHlo.after_of_writes_sub hostOps0 _ hostOps0_writes (by decide)
    _ = m ((c : Thread nD τ).loc main_arg3) := rfl
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := StableHlo.after_of_writes_sub hostOps2 _ hostOps2_writes (by decide)
    _ = W3 m ρ c (Proc.devRef .tc main_arg4) := W4_of_ne m ρ c main_arg4 (by decide)
    _ = W2 m ρ c (Proc.devRef .tc main_arg4) := StableHlo.after_of_writes_sub hostOps1 _ hostOps1_writes (by decide)
    _ = W1 m ρ c (Proc.devRef .tc main_arg4) := W2_of_ne m ρ c main_arg4 (by decide)
    _ = W0 m ρ c (Proc.devRef .tc main_arg4) := StableHlo.after_of_writes_sub hostOps0 _ hostOps0_writes (by decide)
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := StableHlo.after_of_writes_sub hostOps2 _ hostOps2_writes (by decide)
    _ = W3 m ρ c (Proc.devRef .tc main_arg5) := W4_of_ne m ρ c main_arg5 (by decide)
    _ = W2 m ρ c (Proc.devRef .tc main_arg5) := StableHlo.after_of_writes_sub hostOps1 _ hostOps1_writes (by decide)
    _ = W1 m ρ c (Proc.devRef .tc main_arg5) := (W2_arr m ρ c 5).trans (((dat0 (V1 m ρ) c).arrAt_in 5 rfl _).trans (A_eq0 (V1 m ρ) c 5))
    _ = W0 m ρ c (Proc.devRef .tc main_arg5) := StableHlo.after_of_writes_sub hostOps0 _ hostOps0_writes (by decide)
    _ = m ((c : Thread nD τ).loc main_arg5) := rfl
theorem W5_main_arg6 (c : Dev nD) : W5 m ρ c (Proc.devRef .tc main_arg6) = m ((c : Thread nD τ).loc main_arg6) :=
  calc W5 m ρ c (Proc.devRef .tc main_arg6)
    _ = W4 m ρ c (Proc.devRef .tc main_arg6) := StableHlo.after_of_writes_sub hostOps2 _ hostOps2_writes (by decide)
    _ = W3 m ρ c (Proc.devRef .tc main_arg6) := W4_of_ne m ρ c main_arg6 (by decide)
    _ = W2 m ρ c (Proc.devRef .tc main_arg6) := StableHlo.after_of_writes_sub hostOps1 _ hostOps1_writes (by decide)
    _ = W1 m ρ c (Proc.devRef .tc main_arg6) := (W2_arr m ρ c 6).trans (((dat0 (V1 m ρ) c).arrAt_in 6 rfl _).trans (A_eq0 (V1 m ρ) c 6))
    _ = W0 m ρ c (Proc.devRef .tc main_arg6) := StableHlo.after_of_writes_sub hostOps0 _ hostOps0_writes (by decide)
    _ = m ((c : Thread nD τ).loc main_arg6) := rfl
theorem W5_main_arg7 (c : Dev nD) : W5 m ρ c (Proc.devRef .tc main_arg7) = m ((c : Thread nD τ).loc main_arg7) :=
  calc W5 m ρ c (Proc.devRef .tc main_arg7)
    _ = W4 m ρ c (Proc.devRef .tc main_arg7) := StableHlo.after_of_writes_sub hostOps2 _ hostOps2_writes (by decide)
    _ = W3 m ρ c (Proc.devRef .tc main_arg7) := W4_of_ne m ρ c main_arg7 (by decide)
    _ = W2 m ρ c (Proc.devRef .tc main_arg7) := StableHlo.after_of_writes_sub hostOps1 _ hostOps1_writes (by decide)
    _ = W1 m ρ c (Proc.devRef .tc main_arg7) := W2_of_ne m ρ c main_arg7 (by decide)
    _ = W0 m ρ c (Proc.devRef .tc main_arg7) := StableHlo.after_of_writes_sub hostOps0 _ hostOps0_writes (by decide)
    _ = m ((c : Thread nD τ).loc main_arg7) := rfl

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c)⟩) (run_main m ρ)

end Cert.KernelIdeal.Fr

end
-- ==== Proof.Spec.lean ====
/-
  The mathematics of additive attention with one score per position, over the extended reals, free of any program.
  For a batch row b and a sequence position s the score is
      score = (sum over h of tanh((q . Qw[h] + Qb[h]) + (k . Kw[h] + Kb[h])) * Vw[h]) + Vb,
  q and k the position's query and key rows; the weights are the softmax of a row of 4096 scores, in the max-shifted
  form both programs compute; the context is the weights' sum of key rows. The two float literals the softmax uses
  (the max's start and the sum's start) are kept as the words both programs print.
-/
import Idealize.ShloMosaic.PureOps.Ideal
import Mathlib.Algebra.BigOperators.Fin

noncomputable section

namespace AttnSpec

open Idealize.ShloMosaic

/-- The start of the row maximum: the word both programs print (minus infinity's pattern). -/
def maxStart : EReal := Ideal.ofBits .f32 0xFF800000#32
/-- The start of the row sum: the word both programs print (zero's pattern). -/
def sumStart : EReal := Ideal.ofBits .f32 0x00000000#32

/-- One position's score from its query row `q`, its key row `k`, the projection matrices (row `h` of each is the
    output feature `h`'s weights), the two bias rows, the score weights and the score bias. -/
def score (q k : Fin 1024 → EReal) (Qw Kw : Fin 1024 → Fin 1024 → EReal) (Qb Kb Vw : Fin 1024 → EReal) (Vb : EReal) : EReal :=
  (∑ h : Fin 1024, Ideal.tanh (((∑ j : Fin 1024, q j * Qw h j) + Qb h) + ((∑ j : Fin 1024, k j * Kw h j) + Kb h)) * Vw h) + Vb

/-- The shifted maximum of a row of scores. -/
def rowMax (x : Fin 4096 → EReal) : EReal :=
  max maxStart ((Finset.univ : Finset (Fin 4096)).fold max maxStart x)

/-- The softmax of a row of scores at position `s`: exp of the score less the row maximum, over the row's sum of those. -/
def softmaxRow (x : Fin 4096 → EReal) (s : Fin 4096) : EReal :=
  Ideal.div (Ideal.exp (x s - rowMax x)) (sumStart + ∑ s' : Fin 4096, Ideal.exp (x s' - rowMax x))

/-- The weighted sum of a column of keys: the sum over the 4096 positions of weight times key entry. -/
def wsum (w k : Fin 4096 → EReal) : EReal := ∑ s : Fin 4096, w s * k s

end AttnSpec

end
-- ==== Proof.ValReg0.lean ====
/-
  What the scores region leaves in its output array, over the extended reals: entry (b, s) of the [8, 4096] array of
  scores is the score of position s of batch row b — its query row and key row against the two weight matrices as the
  region finds them (already transposed: entry (j, h) is feature h's weight for input j), the biases, the score
  weights and the score bias. Each grid point writes the block of 128 positions it computed, and the 32 blocks
  tile the sequence axis.
-/
import proofs.«108339_j59459527246143_1_alg».proof.Proof.FrameKI.Reg0
import proofs.«108339_j59459527246143_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat Cfg Window)
open Idealize.ShloMosaic.ValueIdx (ix1 ix2 ix3)
open scoped BigOperators

/-! ## The body's arithmetic at an index -/

/-- The dimension numbers of both products: rows of the left operand against rows of the right. -/
abbrev scD := dot_S1024x1024_S1024x1024_S1024x1024_1_0_0_1_n_n

theorem sc_lhsD_0 (i : S1024x1024.Idx) (q : scD.contr.Idx) : (scD.lhsIdx i q 0).val = (i 0).val := by
  unfold DotDims.lhsIdx
  rw [dif_neg (show ¬(0 : Fin S1024x1024.rank) ∈ scD.lhsBatch by decide), dif_pos (show (0 : Fin S1024x1024.rank) ∈ scD.lhsNonContracting by decide)]
  rfl
theorem sc_lhsD_1 (i : S1024x1024.Idx) (q : scD.contr.Idx) : (scD.lhsIdx i q 1).val = (q ⟨0, by decide⟩).val :=
  scD.lhsIdx_val_of_single rfl i q
theorem sc_rhsD_0 (i : S1024x1024.Idx) (q : scD.contr.Idx) : (scD.rhsIdx i q 0).val = (q ⟨0, by decide⟩).val :=
  scD.rhsIdx_val_of_single rfl i q
theorem sc_rhsD_1 (i : S1024x1024.Idx) (q : scD.contr.Idx) : (scD.rhsIdx i q 1).val = (i 1).val := by
  unfold DotDims.rhsIdx
  rw [dif_neg (show ¬(1 : Fin S1024x1024.rank) ∈ scD.rhsBatch by decide), dif_pos (show (1 : Fin S1024x1024.rank) ∈ scD.rhsNonContracting by decide)]
  rfl

/-- Row b * 128 + p of the flattened block. -/
abbrev sc_rowOf (b : Fin 8) (p : Fin 128) : Fin 1024 := ⟨b.val * 128 + p.val, by have := b.isLt; have := p.isLt; omega⟩

/-- A block of rows flattened to a matrix, read at (b * 128 + p, j), is the block at (b, p, j). -/
theorem sc_flat_apply (x : S8x128x1024.Idx → EReal) (b : Fin 8) (p : Fin 128) (j : Fin 1024) :
    shapeCast S1024x1024 x shapeCasts_S8x128x1024_S1024x1024 (ix2 (sc_rowOf b p) j) = x (ix3 b p j) :=
  shapeCast_apply x shapeCasts_S8x128x1024_S1024x1024 (ix2 (sc_rowOf b p) j) (ix3 b p j) (by
    rewrite [Shape.rowMajor_val_three, Shape.rowMajor_val_two]
    show (b.val * 128 + p.val) * 1024 + j.val = (b.val * 128 + p.val) * 1024 + j.val
    rfl)

/-- A matrix unflattened to a block of rows, read at (b, p, h), is the matrix at (b * 128 + p, h). -/
theorem sc_unflat_apply (y : S1024x1024.Idx → EReal) (b : Fin 8) (p : Fin 128) (h : Fin 1024) :
    shapeCast S8x128x1024 y shapeCasts_S1024x1024_S8x128x1024 (ix3 b p h) = y (ix2 (sc_rowOf b p) h) :=
  shapeCast_apply y shapeCasts_S1024x1024_S8x128x1024 (ix3 b p h) (ix2 (sc_rowOf b p) h) (by
    rewrite [Shape.rowMajor_val_three, Shape.rowMajor_val_two]
    show (b.val * 128 + p.val) * 1024 + h.val = (b.val * 128 + p.val) * 1024 + h.val
    rfl)

/-- One product of the body read at (b, p, h): the block's row (b, p) against column h of the matrix. -/
theorem sc_proj_apply (x : FVec Ideal S8x128x1024 .f32) (w : FVec Ideal S1024x1024 .bf16) (b : Fin 8) (p : Fin 128) (h : Fin 1024) :
    shapeCast S8x128x1024
        (matmul scD none (truncf .bf16 (shapeCast S1024x1024 x shapeCasts_S8x128x1024_S1024x1024) bitsLt_bf16_f32)
          (shapeCast S1024x1024 w shapeCasts_S1024x1024_S1024x1024) (constant S1024x1024 .f32 0x00000000#32))
        shapeCasts_S1024x1024_S8x128x1024 (ix3 b p h)
      = ∑ j : Fin 1024, x (ix3 b p j) * w (ix2 j h) := by
  refine (sc_unflat_apply _ b p h).trans ?_
  rw [shapeCast_self]
  simp only [matmul]
  rw [Ideal.matmul_constant_zero_apply, ← Equiv.sum_comp (ValueIdx.contrEquiv1 scD 1024 rfl rfl).symm]
  refine Finset.sum_congr rfl fun k _ => ?_
  have hk := ValueIdx.contrEquiv1_symm_val scD 1024 rfl rfl k
  have el : scD.lhsIdx (ix2 (sc_rowOf b p) h) ((ValueIdx.contrEquiv1 scD 1024 rfl rfl).symm k) = ix2 (sc_rowOf b p) k := funext fun a => Fin.ext (by
    match a with
    | ⟨0, _⟩ => exact sc_lhsD_0 _ _
    | ⟨1, _⟩ => exact (sc_lhsD_1 _ _).trans hk)
  have er : scD.rhsIdx (ix2 (sc_rowOf b p) h) ((ValueIdx.contrEquiv1 scD 1024 rfl rfl).symm k) = ix2 k h := funext fun a => Fin.ext (by
    match a with
    | ⟨0, _⟩ => exact (sc_rhsD_0 _ _).trans hk
    | ⟨1, _⟩ => exact sc_rhsD_1 _ _)
  rw [el, er]
  exact congrArg (· * w (ix2 k h)) (sc_flat_apply x b p k)

/-- A row of 1024 broadcast over a block of rows reads its entry h at (b, p, h). -/
theorem sc_bias_apply (v : S1024.Idx → EReal) (b : Fin 8) (p : Fin 128) (h : Fin 1024) :
    broadcastTo S8x128x1024 (shapeCast S1x1x1024 v shapeCasts_S1024_S1x1x1024) broadcasts_S1x1x1024_S8x128x1024 (ix3 b p h)
      = v (ix1 h) := by
  refine (broadcastTo_apply _ broadcasts_S1x1x1024_S8x128x1024 (ix3 b p h) (ix3 (0 : Fin 1) (0 : Fin 1) h) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show h.val = if (1024 : Nat) = 1 then 0 else h.val; rw [if_neg (by decide)])).trans ?_
  exact shapeCast_apply v shapeCasts_S1024_S1x1x1024 (ix3 (0 : Fin 1) (0 : Fin 1) h) (ix1 h) (by
    rewrite [Shape.rowMajor_val_three, Shape.rowMajor_val_one]
    show h.val = (0 * 1 + 0) * 1024 + h.val
    omega)

/-- The same for a [1, 1024] row. -/
theorem sc_wrow_apply (v : S1x1024.Idx → EReal) (b : Fin 8) (p : Fin 128) (h : Fin 1024) :
    broadcastTo S8x128x1024 (shapeCast S1x1x1024 v shapeCasts_S1x1024_S1x1x1024) broadcasts_S1x1x1024_S8x128x1024 (ix3 b p h)
      = v (ix2 (0 : Fin 1) h) := by
  refine (broadcastTo_apply _ broadcasts_S1x1x1024_S8x128x1024 (ix3 b p h) (ix3 (0 : Fin 1) (0 : Fin 1) h) (fun a => match a with
    | ⟨0, _⟩ => by show 0 = if (1 : Nat) = 1 then 0 else _; rw [if_pos rfl]
    | ⟨1, _⟩ => by show 0 = if (1 : Nat) = 1 then 0 else _; rw [if_pos rfl]
    | ⟨2, _⟩ => by show h.val = if (1024 : Nat) = 1 then 0 else h.val; rw [if_neg (by decide)])).trans ?_
  exact shapeCast_apply v shapeCasts_S1x1024_S1x1x1024 (ix3 (0 : Fin 1) (0 : Fin 1) h) (ix2 (0 : Fin 1) h) (by
    rewrite [Shape.rowMajor_val_three, Shape.rowMajor_val_two]
    show 0 * 1024 + h.val = (0 * 1 + 0) * 1024 + h.val
    omega)

/-- The one score bias broadcast over the block of scores. -/
theorem sc_vb_apply (v : S1x1.Idx → EReal) (b : Fin 8) (p : Fin 128) :
    broadcastTo S8x128 (shapeCast S1x1 v shapeCasts_S1x1_S1x1) broadcasts_S1x1_S8x128 (ix2 b p) = v (ix2 (0 : Fin 1) (0 : Fin 1)) := by
  rw [shapeCast_self]
  exact broadcastTo_apply v broadcasts_S1x1_S8x128 (ix2 b p) (ix2 (0 : Fin 1) (0 : Fin 1)) (fun a => match a with
    | ⟨0, _⟩ => by show 0 = if (1 : Nat) = 1 then 0 else _; rw [if_pos rfl]
    | ⟨1, _⟩ => by show 0 = if (1 : Nat) = 1 then 0 else _; rw [if_pos rfl])

/-- THE PAYLOAD AT AN INDEX: entry (b, p) of the stored block is the score of the block's position p of batch row b. -/
theorem sc_pay1_apply (x0 x1 : Vec Ideal S8x128x1024 .f32) (x2 x4 : Vec Ideal S1024x1024 .bf16) (x3 x5 : Vec Ideal S1024 .f32)
    (x6 : Vec Ideal S1x1024 .f32) (x7 : Vec Ideal S1x1 .f32) (b : Fin 8) (p : Fin 128) :
    (k0_pay1 x0 x1 x2 x4 x3 x5 x6 x7 : S8x128.Idx → EReal) (ix2 b p)
      = AttnSpec.score (fun j => (x0 : S8x128x1024.Idx → EReal) (ix3 b p j)) (fun j => (x1 : S8x128x1024.Idx → EReal) (ix3 b p j))
          (fun h j => (x2 : S1024x1024.Idx → EReal) (ix2 j h)) (fun h j => (x4 : S1024x1024.Idx → EReal) (ix2 j h))
          (fun h => (x3 : S1024.Idx → EReal) (ix1 h)) (fun h => (x5 : S1024.Idx → EReal) (ix1 h))
          (fun h => (x6 : S1x1024.Idx → EReal) (ix2 0 h)) ((x7 : S1x1.Idx → EReal) (ix2 0 0)) := by
  unfold k0_pay1 AttnSpec.score
  refine congrArg₂ (· + ·) ?_ (sc_vb_apply x7 b p)
  refine (Ideal.multiReduction_add_single _ _ reduces_S8x128x1024_S8x128 (.inl rfl) rfl (ix2 b p)).trans ?_
  refine Finset.sum_congr rfl fun h _ => ?_
  have hl : reduces_S8x128x1024_S8x128.lift (ix2 b p) h = ix3 b p h :=
    funext fun a => Fin.ext (by match a with | ⟨0, _⟩ => rfl | ⟨1, _⟩ => rfl | ⟨2, _⟩ => rfl)
  rw [hl]
  refine congrArg₂ (· * ·) (congrArg Ideal.tanh ?_) (sc_wrow_apply x6 b p h)
  refine congrArg₂ (· + ·) (congrArg₂ (· + ·) (sc_proj_apply x0 x2 b p h) (sc_bias_apply x3 b p h))
    (congrArg₂ (· + ·) (sc_proj_apply x1 x4 b p h) (sc_bias_apply x5 b p h))

/-! ## The blocks stored, as one array -/

variable (V : (c : Dev nD) → (b : Ref sig .tc) → Buf (Elt Ideal) ((c : Thread nD τ).loc b))

/-- The score of position s of batch row b, from the arrays as the region finds them. -/
def scoreAt (c : Dev nD) (b : Fin 8) (s : Fin 4096) : EReal :=
  AttnSpec.score (fun j => (V c main_arg0 : S8x4096x1024.Idx → EReal) (ix3 b s j))
    (fun j => (V c main_arg1 : S8x4096x1024.Idx → EReal) (ix3 b s j))
    (fun h j => (V c main_v1 : S1024x1024.Idx → EReal) (ix2 j h))
    (fun h j => (V c main_v3 : S1024x1024.Idx → EReal) (ix2 j h))
    (fun h => (V c main_arg3 : S1024.Idx → EReal) (ix1 h))
    (fun h => (V c main_arg5 : S1024.Idx → EReal) (ix1 h))
    (fun h => (V c main_arg6 : S1x1024.Idx → EReal) (ix2 0 h))
    ((V c main_v4 : S1x1.Idx → EReal) (ix2 0 0))

/-- The whole array of scores. -/
def scoresG (c : Dev nD) : S8x4096.Idx → EReal := fun i => scoreAt V c ⟨(i 0).val, (i 0).isLt⟩ ⟨(i 1).val, (i 1).isLt⟩

/-- The printed index maps over the grid: the queries', the keys' and the scores' blocks move along the sequence axis
    with the point; every other window stays at its whole array. -/
theorem sc_idx_facts : ∀ t : Fin cfg0.N,
    win0_0.index t (0 : Fin 3) = 0 ∧ win0_0.index t (1 : Fin 3) = t.val ∧ win0_0.index t (2 : Fin 3) = 0
    ∧ win0_1.index t (0 : Fin 3) = 0 ∧ win0_1.index t (1 : Fin 3) = t.val ∧ win0_1.index t (2 : Fin 3) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = t.val :=
  (by decide +kernel : ∀ t : Fin grid0.N, _)

/-- Position 128 t + p of the sequence: block t's position p. -/
abbrev sc_posOf (t : Fin cfg0.N) (p : Fin 128) : Fin 4096 :=
  ⟨t.val * 128 + p.val, by have h := t.isLt; have hN : cfg0.N = 32 := N_0; have := p.isLt; omega⟩

/-- The queries' block at point t is positions 128 t .. 128 t + 127 of the queries. -/
theorem iblk0_0_apply (c : Dev nD) (t : Fin cfg0.N) (b : Fin 8) (p : Fin 128) (j : Fin 1024) :
    (iblk0 V c 0 t : S8x128x1024.Idx → EReal) (ix3 b p j)
      = (V c main_arg0 : S8x4096x1024.Idx → EReal) (ix3 b (sc_posOf t p) j) := by
  obtain ⟨e0, e1, e2, -⟩ := sc_idx_facts t
  unfold iblk0
  rw [View.read_apply]
  show (V c main_arg0 : S8x4096x1024.Idx → EReal) _ = _
  congr 1
  funext a; apply Fin.ext
  match a with
  | ⟨0, _⟩ => show win0_0.index t (0 : Fin 3) * 8 + 1 * b.val = b.val; rw [e0]; omega
  | ⟨1, _⟩ => show win0_0.index t (1 : Fin 3) * 128 + 1 * p.val = t.val * 128 + p.val; rw [e1]; omega
  | ⟨2, _⟩ => show win0_0.index t (2 : Fin 3) * 1024 + 1 * j.val = j.val; rw [e2]; omega

/-- The keys' block likewise. -/
theorem iblk0_1_apply (c : Dev nD) (t : Fin cfg0.N) (b : Fin 8) (p : Fin 128) (j : Fin 1024) :
    (iblk0 V c 1 t : S8x128x1024.Idx → EReal) (ix3 b p j)
      = (V c main_arg1 : S8x4096x1024.Idx → EReal) (ix3 b (sc_posOf t p) j) := by
  obtain ⟨-, -, -, e0, e1, e2, -⟩ := sc_idx_facts t
  unfold iblk0
  rw [View.read_apply]
  show (V c main_arg1 : S8x4096x1024.Idx → EReal) _ = _
  congr 1
  funext a; apply Fin.ext
  match a with
  | ⟨0, _⟩ => show win0_1.index t (0 : Fin 3) * 8 + 1 * b.val = b.val; rw [e0]; omega
  | ⟨1, _⟩ => show win0_1.index t (1 : Fin 3) * 128 + 1 * p.val = t.val * 128 + p.val; rw [e1]; omega
  | ⟨2, _⟩ => show win0_1.index t (2 : Fin 3) * 1024 + 1 * j.val = j.val; rw [e2]; omega

/-- Every other input window's block is its whole array. -/
theorem iblk0_2_apply (c : Dev nD) (t : Fin cfg0.N) (j h : Fin 1024) :
    (iblk0 V c 2 t : S1024x1024.Idx → EReal) (ix2 j h) = (V c main_v1 : S1024x1024.Idx → EReal) (ix2 j h) := by
  obtain ⟨-, -, -, -, -, -, e0, e1, -⟩ := sc_idx_facts t
  unfold iblk0
  rw [View.read_apply]
  show (V c main_v1 : S1024x1024.Idx → EReal) _ = _
  congr 1
  funext a; apply Fin.ext
  match a with
  | ⟨0, _⟩ => show win0_2.index t (0 : Fin 2) * 1024 + 1 * j.val = j.val; rw [e0]; omega
  | ⟨1, _⟩ => show win0_2.index t (1 : Fin 2) * 1024 + 1 * h.val = h.val; rw [e1]; omega
theorem iblk0_3_apply (c : Dev nD) (t : Fin cfg0.N) (h : Fin 1024) :
    (iblk0 V c 3 t : S1024.Idx → EReal) (ix1 h) = (V c main_arg3 : S1024.Idx → EReal) (ix1 h) := by
  obtain ⟨-, -, -, -, -, -, -, -, e0, -⟩ := sc_idx_facts t
  unfold iblk0
  rw [View.read_apply]
  show (V c main_arg3 : S1024.Idx → EReal) _ = _
  congr 1
  funext a; apply Fin.ext
  match a with
  | ⟨0, _⟩ => show win0_3.index t (0 : Fin 1) * 1024 + 1 * h.val = h.val; rw [e0]; omega
theorem iblk0_4_apply (c : Dev nD) (t : Fin cfg0.N) (j h : Fin 1024) :
    (iblk0 V c 4 t : S1024x1024.Idx → EReal) (ix2 j h) = (V c main_v3 : S1024x1024.Idx → EReal) (ix2 j h) := by
  obtain ⟨-, -, -, -, -, -, -, -, -, e0, e1, -⟩ := sc_idx_facts t
  unfold iblk0
  rw [View.read_apply]
  show (V c main_v3 : S1024x1024.Idx → EReal) _ = _
  congr 1
  funext a; apply Fin.ext
  match a with
  | ⟨0, _⟩ => show win0_4.index t (0 : Fin 2) * 1024 + 1 * j.val = j.val; rw [e0]; omega
  | ⟨1, _⟩ => show win0_4.index t (1 : Fin 2) * 1024 + 1 * h.val = h.val; rw [e1]; omega
theorem iblk0_5_apply (c : Dev nD) (t : Fin cfg0.N) (h : Fin 1024) :
    (iblk0 V c 5 t : S1024.Idx → EReal) (ix1 h) = (V c main_arg5 : S1024.Idx → EReal) (ix1 h) := by
  obtain ⟨-, -, -, -, -, -, -, -, -, -, -, e0, -⟩ := sc_idx_facts t
  unfold iblk0
  rw [View.read_apply]
  show (V c main_arg5 : S1024.Idx → EReal) _ = _
  congr 1
  funext a; apply Fin.ext
  match a with
  | ⟨0, _⟩ => show win0_5.index t (0 : Fin 1) * 1024 + 1 * h.val = h.val; rw [e0]; omega
theorem iblk0_6_apply (c : Dev nD) (t : Fin cfg0.N) (h : Fin 1024) :
    (iblk0 V c 6 t : S1x1024.Idx → EReal) (ix2 (0 : Fin 1) h) = (V c main_arg6 : S1x1024.Idx → EReal) (ix2 (0 : Fin 1) h) := by
  obtain ⟨-, -, -, -, -, -, -, -, -, -, -, -, e0, e1, -⟩ := sc_idx_facts t
  unfold iblk0
  rw [View.read_apply]
  show (V c main_arg6 : S1x1024.Idx → EReal) _ = _
  congr 1
  funext a; apply Fin.ext
  match a with
  | ⟨0, _⟩ => show win0_6.index t (0 : Fin 2) * 1 + 1 * 0 = 0; rw [e0]
  | ⟨1, _⟩ => show win0_6.index t (1 : Fin 2) * 1024 + 1 * h.val = h.val; rw [e1]; omega
theorem iblk0_7_apply (c : Dev nD) (t : Fin cfg0.N) :
    (iblk0 V c 7 t : S1x1.Idx → EReal) (ix2 (0 : Fin 1) (0 : Fin 1)) = (V c main_v4 : S1x1.Idx → EReal) (ix2 (0 : Fin 1) (0 : Fin 1)) := by
  obtain ⟨-, -, -, -, -, -, -, -, -, -, -, -, -, -, e0, e1, -⟩ := sc_idx_facts t
  unfold iblk0
  rw [View.read_apply]
  show (V c main_v4 : S1x1.Idx → EReal) _ = _
  congr 1
  funext a; apply Fin.ext
  match a with
  | ⟨0, _⟩ => show win0_7.index t (0 : Fin 2) * 1 + 1 * 0 = 0; rw [e0]
  | ⟨1, _⟩ => show win0_7.index t (1 : Fin 2) * 1 + 1 * 0 = 0; rw [e1]

/-- One stored entry, over any eight blocks that read the arrays as the point's blocks do: the score of the position. -/
theorem sc_point_eq (c : Dev nD) (b : Fin 8) (p : Fin 128) (s : Fin 4096)
    (x0 x1 : Vec Ideal S8x128x1024 .f32) (x2 x4 : Vec Ideal S1024x1024 .bf16) (x3 x5 : Vec Ideal S1024 .f32)
    (x6 : Vec Ideal S1x1024 .f32) (x7 : Vec Ideal S1x1 .f32)
    (h0 : ∀ j : Fin 1024, (x0 : S8x128x1024.Idx → EReal) (ix3 b p j) = (V c main_arg0 : S8x4096x1024.Idx → EReal) (ix3 b s j))
    (h1 : ∀ j : Fin 1024, (x1 : S8x128x1024.Idx → EReal) (ix3 b p j) = (V c main_arg1 : S8x4096x1024.Idx → EReal) (ix3 b s j))
    (h2 : ∀ j h : Fin 1024, (x2 : S1024x1024.Idx → EReal) (ix2 j h) = (V c main_v1 : S1024x1024.Idx → EReal) (ix2 j h))
    (h4 : ∀ j h : Fin 1024, (x4 : S1024x1024.Idx → EReal) (ix2 j h) = (V c main_v3 : S1024x1024.Idx → EReal) (ix2 j h))
    (h3 : ∀ h : Fin 1024, (x3 : S1024.Idx → EReal) (ix1 h) = (V c main_arg3 : S1024.Idx → EReal) (ix1 h))
    (h5 : ∀ h : Fin 1024, (x5 : S1024.Idx → EReal) (ix1 h) = (V c main_arg5 : S1024.Idx → EReal) (ix1 h))
    (h6 : ∀ h : Fin 1024, (x6 : S1x1024.Idx → EReal) (ix2 (0 : Fin 1) h) = (V c main_arg6 : S1x1024.Idx → EReal) (ix2 (0 : Fin 1) h))
    (h7 : (x7 : S1x1.Idx → EReal) (ix2 (0 : Fin 1) (0 : Fin 1)) = (V c main_v4 : S1x1.Idx → EReal) (ix2 (0 : Fin 1) (0 : Fin 1))) :
    (k0_pay1 x0 x1 x2 x4 x3 x5 x6 x7 : S8x128.Idx → EReal) (ix2 b p) = scoreAt V c b s := by
  rw [sc_pay1_apply]
  unfold scoreAt
  simp only [h0, h1, h2, h3, h4, h5, h6, h7]

/-- WHAT POINT t WRITES BACK is block t of the array of scores. -/
theorem sc_flushed_eq (c : Dev nD) (t : Fin cfg0.N) :
    (dat0 (F := Ideal) V c).flushed 8 t = ((cfg0.win 8).blk t).view.read (Elt Ideal) (scoresG V c) := by
  show (cfg0.win 8).cut (cfg0.grid.coords t) ((dat0 V c).after 8 t) = _
  rw [after0_8, out0_8_eq]
  funext y
  obtain ⟨b, p, rfl⟩ : ∃ (b : Fin 8) (p : Fin 128), y = ix2 b p := ⟨y 0, y 1, ValueIdx.eq_ix2 y⟩
  rw [View.read_apply]
  refine (sc_point_eq V c b p (sc_posOf t p) _ _ _ _ _ _ _ _ (iblk0_0_apply V c t b p) (iblk0_1_apply V c t b p)
    (iblk0_2_apply V c t) (iblk0_4_apply V c t) (iblk0_3_apply V c t) (iblk0_5_apply V c t) (iblk0_6_apply V c t)
    (iblk0_7_apply V c t)).trans ?_
  obtain ⟨-, -, -, -, -, -, -, -, -, -, -, -, -, -, -, -, e0, e1⟩ := sc_idx_facts t
  show scoreAt V c b (sc_posOf t p) = scoresG V c _
  unfold scoresG
  refine congrArg₂ (scoreAt V c) (Fin.ext ?_) (Fin.ext ?_)
  · show b.val = win0_8.index t (0 : Fin 2) * 8 + 1 * b.val
    rw [e0]; omega
  · show t.val * 128 + p.val = win0_8.index t (1 : Fin 2) * 128 + 1 * p.val
    rw [e1]; omega

/-- Every entry of the array is in the block of the point its position falls to. -/
theorem sc_covered (i : S8x4096.Idx) : ∃ t : Fin cfg0.N, (cfg0.win 8).flush t = true ∧ i ∈ ((cfg0.win 8).blk t).view.set := by
  have hN : cfg0.N = 32 := N_0
  have h0 : (i 0).val < 8 := (i 0).isLt
  have h1 : (i 1).val < 4096 := (i 1).isLt
  let t : Fin cfg0.N := ⟨(i 1).val / 128, by omega⟩
  obtain ⟨-, -, -, -, -, -, -, -, -, -, -, -, -, -, -, -, e0, e1⟩ := sc_idx_facts t
  refine ⟨t, flush0_8 t, ?_⟩
  show i ∈ ((View.whole main_v5).slice (win0_8.rect t)).set
  rw [View.set_slice_whole, Rect.mem_set_unit]
  intro a
  match a with
  | ⟨0, _⟩ =>
    show win0_8.index t (0 : Fin 2) * 8 ≤ (i 0).val ∧ (i 0).val < win0_8.index t (0 : Fin 2) * 8 + 8
    rw [e0]; omega
  | ⟨1, _⟩ =>
    show win0_8.index t (1 : Fin 2) * 128 ≤ (i 1).val ∧ (i 1).val < win0_8.index t (1 : Fin 2) * 128 + 128
    rw [e1]; show (i 1).val / 128 * 128 ≤ (i 1).val ∧ (i 1).val < (i 1).val / 128 * 128 + 128; omega

/-- THE ARRAY after the region is the array of scores. -/
theorem final_scores (c : Dev nD) : (dat0 (F := Ideal) V c).arrAt 8 cfg0.N = scoresG V c :=
  (dat0 V c).arrAt_eq_of_cover 8 (scoresG V c) (fun t _ => sc_flushed_eq V c t) sc_covered

/-- Entry (b, s) of the scores array after the region. -/
theorem scores_arr (c : Dev nD) (b : Fin 8) (s : Fin 4096) :
    ((dat0 (F := Ideal) V c).arrAt 8 cfg0.N : S8x4096.Idx → EReal) (ix2 b s)
      = AttnSpec.score (fun j => (V c main_arg0 : S8x4096x1024.Idx → EReal) (ix3 b s j))
          (fun j => (V c main_arg1 : S8x4096x1024.Idx → EReal) (ix3 b s j))
          (fun h j => (V c main_v1 : S1024x1024.Idx → EReal) (ix2 j h))
          (fun h j => (V c main_v3 : S1024x1024.Idx → EReal) (ix2 j h))
          (fun h => (V c main_arg3 : S1024.Idx → EReal) (ix1 h))
          (fun h => (V c main_arg5 : S1024.Idx → EReal) (ix1 h))
          (fun h => (V c main_arg6 : S1x1024.Idx → EReal) (ix2 0 h))
          ((V c main_v4 : S1x1.Idx → EReal) (ix2 0 0)) := by
  rw [final_scores]
  rfl

end Cert.KernelIdeal.Val

end
-- ==== Proof.ValReg1.lean ====
/-
  What the context region leaves in its output array, over the extended reals: entry (b, h) of the [8, 1024] context
  is the sum over all 4096 positions s of weights[b, s] * keys[b, s, h]. The region accumulates it tile by tile (16
  tiles of 256 positions, from a cleared accumulator) and writes the accumulator back once, after the last tile;
  regrouping the sum by tiles is associativity and commutativity of addition on the extended reals.
-/
import proofs.«108339_j59459527246143_1_alg».proof.Proof.FrameKI.Reg1
import proofs.«108339_j59459527246143_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat Cfg Window)
open Idealize.ShloMosaic.ValueIdx (ix1 ix2 ix3)

variable (V : (c : Dev nD) → (b : Ref sig .tc) → Buf (Elt Ideal) ((c : Thread nD τ).loc b))

/-! ## The payloads read at an index -/

/-- The reduction's source index over (b, h) with coordinate p on the reduced axis is (b, p, h). -/
theorem ctx_lift_ix (b : Fin 8) (h : Fin 1024) (p : Fin 256) :
    reduces_S8x256x1024_S8x1024.lift (ix2 b h) p = ix3 b p h := by
  funext c
  apply Fin.ext
  match c with
  | ⟨0, _⟩ => rfl
  | ⟨1, _⟩ => rfl
  | ⟨2, _⟩ => rfl

/-- The weights tile, given a trailing unit axis and broadcast along the feature axis, reads at (b, p, h) the
    weight at (b, p). -/
theorem ctx_bcast_apply (w : S8x256.Idx → EReal) (b : Fin 8) (p : Fin 256) (h : Fin 1024) :
    broadcastTo S8x256x1024 (shapeCast S8x256x1 w shapeCasts_S8x256_S8x256x1) broadcasts_S8x256x1_S8x256x1024 (ix3 b p h)
      = w (ix2 b p) := by
  refine (broadcastTo_apply _ broadcasts_S8x256x1_S8x256x1024 (ix3 b p h) (ix3 b p (0 : Fin 1)) fun ax => ?_).trans ?_
  · match ax with
    | ⟨0, _⟩ => rfl
    | ⟨1, _⟩ => rfl
    | ⟨2, _⟩ => rfl
  · refine shapeCast_apply w shapeCasts_S8x256_S8x256x1 (ix3 b p (0 : Fin 1)) (ix2 b p) ?_
    rw [Shape.rowMajor_val_two, Shape.rowMajor_val_three]
    show b.val * 256 + p.val = (b.val * 256 + p.val) * 1 + 0
    omega

/-- One point's update at (b, h): the accumulator there plus the tile's sum of weight times key entry. -/
theorem ctx_pay2_apply (w : Vec Ideal S8x256 .f32) (k : Vec Ideal S8x256x1024 .f32) (a : Vec Ideal S8x1024 .f32) (b : Fin 8) (h : Fin 1024) :
    (k1_pay2 w k a : S8x1024.Idx → EReal) (ix2 b h)
      = (a (ix2 b h) : EReal) + ∑ p : Fin 256, (w (ix2 b p) : EReal) * (k (ix3 b p h) : EReal) := by
  unfold k1_pay2
  simp only [shapeCast_self]
  refine congrArg (fun x => (a (ix2 b h) : EReal) + x) ?_
  refine (Ideal.multiReduction_add_single _ _ reduces_S8x256x1024_S8x1024 _ _ (ix2 b h)).trans ?_
  refine Finset.sum_congr rfl fun p _ => ?_
  rw [ctx_lift_ix b h p]
  exact congrArg (fun x : EReal => x * (k (ix3 b p h) : EReal)) (ctx_bcast_apply w b p h)

/-- The cleared accumulator is zero everywhere. -/
theorem ctx_pay1_apply (j : S8x1024.Idx) : (k1_pay1 (F := Ideal) : S8x1024.Idx → EReal) j = 0 := by
  unfold k1_pay1
  simp only [shapeCast_self]
  exact Ideal.ofBits_zero_f32

/-! ## The tiles read at an index -/

theorem ctx_N : cfg1.N = 16 := N_1

/-- The weights window's block index at point t is (0, t). -/
theorem ctx_index_0 : ∀ t : Fin cfg1.N, (cfg1.win 0).index t 0 = 0 ∧ (cfg1.win 0).index t 1 = t.val :=
  (by decide +kernel : ∀ t : Fin grid1.N, win1_0.index t 0 = 0 ∧ win1_0.index t 1 = t.val)

/-- The keys window's block index at point t is (0, t, 0). -/
theorem ctx_index_1 : ∀ t : Fin cfg1.N, (cfg1.win 1).index t 0 = 0 ∧ (cfg1.win 1).index t 1 = t.val ∧ (cfg1.win 1).index t 2 = 0 :=
  (by decide +kernel : ∀ t : Fin grid1.N, win1_1.index t 0 = 0 ∧ win1_1.index t 1 = t.val ∧ win1_1.index t 2 = 0)

/-- Tile t of the weights at (b, p) is the weight at (b, 256 t + p). -/
theorem ctx_blk0_apply (c : Dev nD) (t : Fin cfg1.N) (b : Fin 8) (p : Fin 256) :
    (iblk1 (F := Ideal) V c 0 t : S8x256.Idx → EReal) (ix2 b p)
      = (V c main_v16 : S8x4096.Idx → EReal) (ix2 b ⟨256 * t.val + p.val, by have := t.isLt; have := ctx_N; have := p.isLt; omega⟩) := by
  unfold iblk1
  rw [View.read_apply]
  show (V c main_v16 : S8x4096.Idx → EReal) _ = (V c main_v16 : S8x4096.Idx → EReal) _
  congr 1
  funext a
  apply Fin.ext
  match a with
  | ⟨0, _⟩ => show (cfg1.win 0).index t 0 * 8 + 1 * b.val = b.val; rw [(ctx_index_0 t).1]; omega
  | ⟨1, _⟩ => show (cfg1.win 0).index t 1 * 256 + 1 * p.val = 256 * t.val + p.val; rw [(ctx_index_0 t).2]; omega

/-- Tile t of the keys at (b, p, h) is the key entry at (b, 256 t + p, h). -/
theorem ctx_blk1_apply (c : Dev nD) (t : Fin cfg1.N) (b : Fin 8) (p : Fin 256) (h : Fin 1024) :
    (iblk1 (F := Ideal) V c 1 t : S8x256x1024.Idx → EReal) (ix3 b p h)
      = (V c main_arg1 : S8x4096x1024.Idx → EReal) (ix3 b ⟨256 * t.val + p.val, by have := t.isLt; have := ctx_N; have := p.isLt; omega⟩ h) := by
  unfold iblk1
  rw [View.read_apply]
  show (V c main_arg1 : S8x4096x1024.Idx → EReal) _ = (V c main_arg1 : S8x4096x1024.Idx → EReal) _
  congr 1
  funext a
  apply Fin.ext
  match a with
  | ⟨0, _⟩ => show (cfg1.win 1).index t 0 * 8 + 1 * b.val = b.val; rw [(ctx_index_1 t).1]; omega
  | ⟨1, _⟩ => show (cfg1.win 1).index t 1 * 256 + 1 * p.val = 256 * t.val + p.val; rw [(ctx_index_1 t).2.1]; omega
  | ⟨2, _⟩ => show (cfg1.win 1).index t 2 * 1024 + 1 * h.val = h.val; rw [(ctx_index_1 t).2.2]; omega

/-! ## The accumulation -/

/-- The weights and the keys as the region finds them, and their tiles at a point, as functions to the extended
    reals. -/
abbrev ctxW (c : Dev nD) : S8x4096.Idx → EReal := V c main_v16
abbrev ctxK (c : Dev nD) : S8x4096x1024.Idx → EReal := V c main_arg1
abbrev ctxWBlk (c : Dev nD) (t : Fin cfg1.N) : S8x256.Idx → EReal := iblk1 (F := Ideal) V c 0 t
abbrev ctxKBlk (c : Dev nD) (t : Fin cfg1.N) : S8x256x1024.Idx → EReal := iblk1 (F := Ideal) V c 1 t

/-- Position i's term of the sum at (b, h): weight times key entry, zero past the sequence's end. -/
def ctxTerm (c : Dev nD) (b : Fin 8) (h : Fin 1024) (i : ℕ) : EReal :=
  if hi : i < 4096 then ctxW V c (ix2 b ⟨i, hi⟩) * ctxK V c (ix3 b ⟨i, hi⟩ h) else 0

/-- Tile t's sum at (b, h) is the sum of the 256 terms from position 256 t on. -/
theorem ctx_tile_sum (c : Dev nD) (t : Fin cfg1.N) (b : Fin 8) (h : Fin 1024) :
    ∑ p : Fin 256, ctxWBlk V c t (ix2 b p) * ctxKBlk V c t (ix3 b p h)
      = ∑ i ∈ Finset.range 256, ctxTerm V c b h (256 * t.val + i) := by
  rw [← Fin.sum_univ_eq_sum_range (fun i => ctxTerm V c b h (256 * t.val + i)) 256]
  refine Finset.sum_congr rfl fun p _ => ?_
  refine (congrArg₂ (fun x y : EReal => x * y) (ctx_blk0_apply V c t b p) (ctx_blk1_apply V c t b p h)).trans ?_
  unfold ctxTerm
  rw [dif_pos (by have := t.isLt; have := ctx_N; have := p.isLt; omega)]

/-- After point n the accumulator at (b, h) is the sum of the first 256 (n + 1) terms. -/
theorem ctx_acc_apply (c : Dev nD) (b : Fin 8) (h : Fin 1024) : ∀ (n : ℕ) (hn : n < cfg1.N),
    (acc1 (F := Ideal) V c n hn : S8x1024.Idx → EReal) (ix2 b h) = ∑ i ∈ Finset.range (256 * (n + 1)), ctxTerm V c b h i
  | 0, hn => by
    rw [acc1_zero]
    refine (ctx_pay2_apply _ _ _ b h).trans ?_
    refine (congrArg₂ (fun x y : EReal => x + y) (ctx_pay1_apply _) (ctx_tile_sum V c ⟨0, hn⟩ b h)).trans ?_
    show (0 : EReal) + ∑ i ∈ Finset.range 256, ctxTerm V c b h (256 * 0 + i) = _
    rw [zero_add]
    refine Finset.sum_congr rfl fun i _ => ?_
    rw [Nat.mul_zero, Nat.zero_add]
  | n + 1, hn => by
    rw [acc1_succ]
    refine (ctx_pay2_apply _ _ _ b h).trans ?_
    refine (congrArg₂ (fun x y : EReal => x + y) (ctx_acc_apply c b h n (Nat.lt_of_succ_lt hn)) (ctx_tile_sum V c ⟨n + 1, hn⟩ b h)).trans ?_
    show (∑ i ∈ Finset.range (256 * (n + 1)), ctxTerm V c b h i) + ∑ i ∈ Finset.range 256, ctxTerm V c b h (256 * (n + 1) + i) = _
    rw [show 256 * (n + 1 + 1) = 256 * (n + 1) + 256 from by omega, Finset.sum_range_add]

/-- After the last point the accumulator at (b, h) is the whole sum over the 4096 positions. -/
theorem ctx_acc_last (c : Dev nD) (b : Fin 8) (h : Fin 1024) (hn : 15 < cfg1.N) :
    (acc1 (F := Ideal) V c 15 hn : S8x1024.Idx → EReal) (ix2 b h)
      = ∑ s : Fin 4096, ctxW V c (ix2 b s) * ctxK V c (ix3 b s h) := by
  rw [ctx_acc_apply V c b h 15 hn, show 256 * (15 + 1) = 4096 from rfl, ← Fin.sum_univ_eq_sum_range (ctxTerm V c b h) 4096]
  refine Finset.sum_congr rfl fun s _ => ?_
  unfold ctxTerm
  rw [dif_pos s.isLt]

/-! ## The array -/

theorem ctx_N_lt : 15 < cfg1.N := by have := ctx_N; omega

/-- The one write-back, at the last point, writes the accumulator that point left: the output's one block is the
    whole array. -/
theorem ctx_flushed (c : Dev nD) (t : Fin cfg1.N) (hf : (cfg1.win 2).flush t = true) :
    (dat1 (F := Ideal) V c).flushed 2 t = ((cfg1.win 2).blk t).view.read (Elt Ideal) (acc1 (F := Ideal) V c 15 ctx_N_lt) := by
  have h15 : t.val = 15 := by have := (flush1_2 t).mp hf; have := t.isLt; have := ctx_N; omega
  obtain rfl : t = t1_15 := Fin.ext h15
  show (cfg1.win 2).cut (grid1.coords t1_15) ((dat1 (F := Ideal) V c).after 2 t1_15) = _
  rw [after1_2]
  have hz' : (fun a => win1_2.index t1_15 a * main_v17.ty.shape.size a) = fun _ => 0 := funext fun a => by fin_cases a <;> decide +kernel
  exact (Memref.read_access_unit_zero (Elt Ideal) main_v17 hz' (fun a => by rw [congrFun hz' a]; simp) (acc1 (F := Ideal) V c 15 ctx_N_lt)).symm

/-- So the context array ends holding the accumulator after the last point. -/
theorem ctx_arr (c : Dev nD) : (dat1 (F := Ideal) V c).arrAt 2 cfg1.N = acc1 (F := Ideal) V c 15 ctx_N_lt :=
  (dat1 (F := Ideal) V c).arrAt_eq_of_cover 2 (acc1 (F := Ideal) V c 15 ctx_N_lt) (ctx_flushed V c) fun i =>
    ⟨t1_15, (flush1_2 t1_15).mpr rfl, by
      show i ∈ ((View.whole main_v17).slice (win1_2.rect t1_15)).set
      rw [View.set_slice_whole, Rect.mem_set_unit]
      intro a
      have h0 : (i 0 : Nat) < 8 := (i 0).isLt
      have h1 : (i 1 : Nat) < 1024 := (i 1).isLt
      match a with
      | ⟨0, _⟩ => show win1_2.index t1_15 0 * win1_2.size 0 ≤ (i 0 : Nat) ∧ (i 0 : Nat) < win1_2.index t1_15 0 * win1_2.size 0 + win1_2.xsize (grid1.coords t1_15) 0
                  rw [show win1_2.index t1_15 0 * win1_2.size 0 = 0 from by decide +kernel, show win1_2.xsize (grid1.coords t1_15) 0 = 8 from by decide +kernel]; omega
      | ⟨1, _⟩ => show win1_2.index t1_15 1 * win1_2.size 1 ≤ (i 1 : Nat) ∧ (i 1 : Nat) < win1_2.index t1_15 1 * win1_2.size 1 + win1_2.xsize (grid1.coords t1_15) 1
                  rw [show win1_2.index t1_15 1 * win1_2.size 1 = 0 from by decide +kernel, show win1_2.xsize (grid1.coords t1_15) 1 = 1024 from by decide +kernel]; omega⟩

/-- Entry (b, h) of the context array after the region. -/
theorem context_arr (c : Dev nD) (b : Fin 8) (h : Fin 1024) :
    ((dat1 (F := Ideal) V c).arrAt 2 cfg1.N : S8x1024.Idx → EReal) (ix2 b h)
      = AttnSpec.wsum (fun s => (V c main_v16 : S8x4096.Idx → EReal) (ix2 b s))
          (fun s => (V c main_arg1 : S8x4096x1024.Idx → EReal) (ix3 b s h)) := by
  refine (congrFun (ctx_arr V c) (ix2 b h)).trans ?_
  unfold AttnSpec.wsum
  exact ctx_acc_last V c b h ctx_N_lt

end Cert.KernelIdeal.Val

end
-- ==== Proof.RunValue.lean ====
/-
  The kernel program's host operations read index by index over the extended reals: what the first stretch hands the
  scores region (the weight matrices transposed, the casts the identity; the score bias reshaped), what the softmax
  stretch makes of the scores array, and what the last stretch returns (the context and the weights with a unit axis
  inserted).
-/
import proofs.«108339_j59459527246143_1_alg».proof.Proof.FrameKI.RunDefs
import proofs.«108339_j59459527246143_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.KernelIdeal.Val

open Cert.KernelIdeal Cert.KernelIdeal.Gen Cert.KernelIdeal.Fr
open Idealize.ShloMosaic Idealize.ShloMosaic.TcCoe Idealize.SL.Sem
open Idealize.ShloMosaic.Pipeline (Dat Cfg Window)
open Idealize.ShloMosaic.ValueIdx (ix1 ix2 ix3)

variable (m : (ℓ : Loc nD τ sig) → Buf (Elt Ideal) ℓ) (ρ : Dev nD → PrngReg)

/-! ## The host softmax as a function of the scores array -/

/-- The shifted row maxima the softmax stretch computes from the scores array. -/
def rowMaxK (x : FVec Ideal S8x4096 .f32) : FVec Ideal S8 .f32 :=
  maximumf (broadcastInDim S8 ![] bcast_S_S8 (constant S_ .f32 0xFF800000#32))
    (Host.reduce FloatOps.maximumf x (constant S_ .f32 0xFF800000#32) reducesTo_S8x4096_S8_d1 h_S_)

/-- The exponentials of the scores less their row's shifted maximum. -/
def expK (x : FVec Ideal S8x4096 .f32) : FVec Ideal S8x4096 .f32 :=
  Host.exp (subf x (broadcastInDim S8x4096 ![0, 1] bcast_S8x1_S8x4096_0_1 (broadcastInDim S8x1 ![0] bcast_S8_S8x1_0 (rowMaxK x))))

/-- The row sums of those exponentials. -/
def sumK (x : FVec Ideal S8x4096 .f32) : FVec Ideal S8 .f32 :=
  Host.reduceAdd (expK x) (constant S_ .f32 0x00000000#32) reducesTo_S8x4096_S8_d1 h_S_

/-- The weights: each exponential over its row's sum. -/
def softmaxK (x : FVec Ideal S8x4096 .f32) : FVec Ideal S8x4096 .f32 :=
  Host.divf (expK x) (broadcastInDim S8x4096 ![0, 1] bcast_S8x1_S8x4096_0_1 (broadcastInDim S8x1 ![0] bcast_S8_S8x1_0 (sumK x)))

/-- A row vector made a column reads, at (b, 0), its entry b. -/
theorem column_apply (y : S8.Idx → EReal) (b : Fin 8) (u : Fin 1) :
    broadcastInDim S8x1 ![0] bcast_S8_S8x1_0 y (ix2 b u) = y (ix1 b) :=
  broadcastInDim_apply _ bcast_S8_S8x1_0 y (ix2 b u) (ix1 b) (fun a => match a with
    | ⟨0, _⟩ => by show b.val = if (8 : Nat) = 1 then 0 else b.val; rw [if_neg (by decide)])

/-- A column spread along the rows of the [8, 4096] array reads, at (b, s), its entry (b, 0). -/
theorem spread_apply (y : S8x1.Idx → EReal) (b : Fin 8) (s : Fin 4096) :
    broadcastInDim S8x4096 ![0, 1] bcast_S8x1_S8x4096_0_1 y (ix2 b s) = y (ix2 b (0 : Fin 1)) :=
  broadcastInDim_apply _ bcast_S8x1_S8x4096_0_1 y (ix2 b s) (ix2 b (0 : Fin 1)) (fun a => match a with
    | ⟨0, _⟩ => by show b.val = if (8 : Nat) = 1 then 0 else b.val; rw [if_neg (by decide)]
    | ⟨1, _⟩ => by show 0 = if (1 : Nat) = 1 then 0 else s.val; rw [if_pos rfl])

/-- The index a reduction along the second axis reads at row b and position k. -/
theorem lift_row (h : S8x4096.Reduces [1] S8) (b : Fin 8) (k : Fin 4096) : h.lift (ix1 b) k = ix2 b k :=
  funext fun a => Fin.ext (by match a with | ⟨0, _⟩ => rfl | ⟨1, _⟩ => rfl)

/-- The shifted row maximum at row b is the specification's, of row b of the scores. -/
theorem rowMaxK_apply (x : S8x4096.Idx → EReal) (b : Fin 8) :
    rowMaxK x (ix1 b) = AttnSpec.rowMax (fun s' => x (ix2 b s')) := by
  unfold rowMaxK AttnSpec.rowMax
  show max (Ideal.ofBits .f32 0xFF800000#32) (Host.reduce max x (constant (F := Ideal) S_ .f32 0xFF800000#32) reducesTo_S8x4096_S8_d1 h_S_ (ix1 b)) = _
  have hR : S8x4096.Reduces [1] S8 := by decide
  rw [Host.reduce_eq_fold_single max x _ reducesTo_S8x4096_S8_d1 hR h_S_ (ix1 b)]
  refine congrArg (max _) ?_
  show (Finset.univ : Finset (Fin 4096)).fold max AttnSpec.maxStart (x ∘ hR.lift (ix1 b)) = _
  exact congrArg (Finset.univ.fold max AttnSpec.maxStart) (funext fun k => congrArg x (lift_row hR b k))

/-- The exponential at (b, s): exp of the score less row b's shifted maximum. -/
theorem expK_apply (x : S8x4096.Idx → EReal) (b : Fin 8) (s : Fin 4096) :
    expK x (ix2 b s) = Ideal.exp (x (ix2 b s) - AttnSpec.rowMax (fun s' => x (ix2 b s'))) := by
  unfold expK
  show Ideal.exp (x (ix2 b s) - broadcastInDim S8x4096 ![0, 1] bcast_S8x1_S8x4096_0_1 (broadcastInDim S8x1 ![0] bcast_S8_S8x1_0 (rowMaxK x)) (ix2 b s)) = _
  rw [spread_apply, column_apply, rowMaxK_apply]

/-- The row sum at row b: the sum's start plus the sum over the row of those exponentials. -/
theorem sumK_apply (x : S8x4096.Idx → EReal) (b : Fin 8) :
    sumK x (ix1 b) = AttnSpec.sumStart + ∑ s' : Fin 4096, Ideal.exp (x (ix2 b s') - AttnSpec.rowMax (fun s'' => x (ix2 b s''))) := by
  unfold sumK
  have hR : S8x4096.Reduces [1] S8 := by decide
  simp only [Host.reduceAdd, Ideal.hostReduceAdd_def]
  rw [Ideal.hostReduceAdd_single reducesTo_S8x4096_S8_d1 hR]
  refine congrArg (_ + ·) ?_
  show ∑ k : Fin 4096, expK x (hR.lift (ix1 b) k) = _
  exact Finset.sum_congr rfl fun k _ => by rw [lift_row hR b k, expK_apply]

/-- The weights at (b, s) are the specification's softmax of row b of the scores at s. -/
theorem softmaxK_apply (x : S8x4096.Idx → EReal) (b : Fin 8) (s : Fin 4096) :
    softmaxK x (ix2 b s) = AttnSpec.softmaxRow (fun s' => x (ix2 b s')) s := by
  unfold softmaxK AttnSpec.softmaxRow
  show Ideal.div (expK x (ix2 b s)) (broadcastInDim S8x4096 ![0, 1] bcast_S8x1_S8x4096_0_1 (broadcastInDim S8x1 ![0] bcast_S8_S8x1_0 (sumK x)) (ix2 b s)) = _
  rw [spread_apply, column_apply, sumK_apply, expK_apply]

/-- The first result at (b, 0, h) is the context array's entry (b, h). -/
theorem res0_K (c : Dev nD) (b : Fin 8) (h : Fin 1024) :
    (W5 m ρ c (Proc.devRef .tc main_v18) : S8x1x1024.Idx → EReal) (ix3 b 0 h)
      = ((dat1 (F := Ideal) (V3 m ρ) c).arrAt 2 cfg1.N : S8x1024.Idx → EReal) (ix2 b h) := by
  dsimp only [W5]
  after_results
  rw [show W4 m ρ c (Proc.devRef .tc main_v17) = _ from W4_arr m ρ c 2]
  exact broadcastInDim_apply _ bcast_S8x1024_S8x1x1024_0_2 _ _ (ix2 b h) (fun a => match a with
    | ⟨0, _⟩ => by show b.val = if (8 : Nat) = 1 then 0 else b.val; rw [if_neg (by decide)]
    | ⟨1, _⟩ => by show h.val = if (1024 : Nat) = 1 then 0 else h.val; rw [if_neg (by decide)])

/-- The second result at (b, 0, s) is the weights array's entry (b, s). -/
theorem res1_K (c : Dev nD) (b : Fin 8) (s : Fin 4096) :
    (W5 m ρ c (Proc.devRef .tc main_v19) : S8x1x4096.Idx → EReal) (ix3 b 0 s)
      = (V3 m ρ c main_v16 : S8x4096.Idx → EReal) (ix2 b s) := by
  dsimp only [W5]
  after_results
  rw [show W4 m ρ c (Proc.devRef .tc main_v16) = V3 m ρ c main_v16 from
    (W4_arr m ρ c 0).trans (((dat1 (V3 m ρ) c).arrAt_in 0 rfl _).trans (A_eq1 (V3 m ρ) c 0))]
  exact broadcastInDim_apply _ bcast_S8x4096_S8x1x4096_0_2 _ _ (ix2 b s) (fun a => match a with
    | ⟨0, _⟩ => by show b.val = if (8 : Nat) = 1 then 0 else b.val; rw [if_neg (by decide)]
    | ⟨1, _⟩ => by show s.val = if (4096 : Nat) = 1 then 0 else s.val; rw [if_neg (by decide)])

/-- The weights array is the row softmax of the scores array. -/
theorem V3_v16 (c : Dev nD) (b : Fin 8) (s : Fin 4096) :
    (V3 m ρ c main_v16 : S8x4096.Idx → EReal) (ix2 b s)
      = AttnSpec.softmaxRow (fun s' => ((dat0 (F := Ideal) (V1 m ρ) c).arrAt 8 cfg0.N : S8x4096.Idx → EReal) (ix2 b s')) s := by
  have e : V3 m ρ c main_v16 = softmaxK ((dat0 (F := Ideal) (V1 m ρ) c).arrAt 8 cfg0.N) := by
    rw [← W2_arr m ρ c 8]
    show StableHlo.after hostOps1 _ (Proc.devRef .tc main_v16) = _
    after_results
    rfl
  rw [e]
  exact softmaxK_apply _ b s

/-- The keys reach the context region as launched. -/
theorem V3_arg1 (c : Dev nD) : V3 m ρ c main_arg1 = m ((c : Thread nD τ).loc main_arg1) := by
  show StableHlo.after hostOps1 _ (Proc.devRef .tc main_arg1) = _
  after_results
  refine (W2_arr m ρ c 1).trans (((dat0 (V1 m ρ) c).arrAt_in 1 rfl _).trans ((A_eq0 (V1 m ρ) c 1).trans ?_))
  show StableHlo.after hostOps0 _ (Proc.devRef .tc main_arg1) = _
  after_results

/-- The transposed query weights at (j, h) are the launched weights at (h, j). -/
theorem V1_v1 (c : Dev nD) (j h : Fin 1024) :
    (V1 m ρ c main_v1 : S1024x1024.Idx → EReal) (ix2 j h) = (m ((c : Thread nD τ).loc main_arg2) : S1024x1024.Idx → EReal) (ix2 h j) := by
  dsimp only [V1, W1]
  after_results
  exact ValueIdx.transpose_ix2_apply _ _ j h
theorem V1_v3 (c : Dev nD) (j h : Fin 1024) :
    (V1 m ρ c main_v3 : S1024x1024.Idx → EReal) (ix2 j h) = (m ((c : Thread nD τ).loc main_arg4) : S1024x1024.Idx → EReal) (ix2 h j) := by
  dsimp only [V1, W1]
  after_results
  exact ValueIdx.transpose_ix2_apply _ _ j h
theorem V1_v4 (c : Dev nD) :
    (V1 m ρ c main_v4 : S1x1.Idx → EReal) (ix2 0 0) = (m ((c : Thread nD τ).loc main_arg7) : S1.Idx → EReal) (ix1 0) := by
  dsimp only [V1, W1]
  after_results
  show shapeCast S1x1 (m ((c : Thread nD τ).loc main_arg7) : S1.Idx → EReal) shapeCasts_S1_S1x1 (ix2 0 0) = _
  exact shapeCast_apply _ shapeCasts_S1_S1x1 _ (ix1 0) (by rw [Shape.rowMajor_val_one, Shape.rowMajor_val_two]; rfl)
theorem V1_arg0 (c : Dev nD) : V1 m ρ c main_arg0 = m ((c : Thread nD τ).loc main_arg0) := by
  show StableHlo.after hostOps0 _ (Proc.devRef .tc main_arg0) = _
  after_results
theorem V1_arg1 (c : Dev nD) : V1 m ρ c main_arg1 = m ((c : Thread nD τ).loc main_arg1) := by
  show StableHlo.after hostOps0 _ (Proc.devRef .tc main_arg1) = _
  after_results
theorem V1_arg3 (c : Dev nD) : V1 m ρ c main_arg3 = m ((c : Thread nD τ).loc main_arg3) := by
  show StableHlo.after hostOps0 _ (Proc.devRef .tc main_arg3) = _
  after_results
theorem V1_arg5 (c : Dev nD) : V1 m ρ c main_arg5 = m ((c : Thread nD τ).loc main_arg5) := by
  show StableHlo.after hostOps0 _ (Proc.devRef .tc main_arg5) = _
  after_results
theorem V1_arg6 (c : Dev nD) : V1 m ρ c main_arg6 = m ((c : Thread nD τ).loc main_arg6) := by
  show StableHlo.after hostOps0 _ (Proc.devRef .tc main_arg6) = _
  after_results

end Cert.KernelIdeal.Val

end
-- ==== Proof.RefSide.lean ====
/-
  The reference program's two results, read off its run index by index over the extended reals: the weights are the
  softmax, along the sequence, of the scores; the context is the weights' sum of key rows.
-/
import proofs.«108339_j59459527246143_1_alg».proof.Proof.Gen.ReferenceIdeal.Run
import proofs.«108339_j59459527246143_1_alg».proof.Proof.Gen.ReferenceIdeal.Read
import proofs.«108339_j59459527246143_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StableHlo.Run

set_option maxRecDepth 16384

noncomputable section

namespace Cert.ReferenceIdeal.RefSide

open Cert.ReferenceIdeal Cert.ReferenceIdeal.Gen Cert.ReferenceIdeal.Value
open Idealize.ShloMosaic Idealize.ShloMosaic.TcCoe Idealize.SL.Sem
open Idealize.ShloMosaic.ValueIdx (ix1 ix2 ix3)

section Stages

/-! Index bookkeeping: the composed index functions at explicit coordinates. -/

theorem lidx0_ix (b : Fin 8) (s : Fin 4096) (h k : Fin 1024) : Read.lidx_main_v0 (ix3 b s h) k = ix3 b s k :=
  funext fun a => Fin.ext (by match a with | ⟨0, _⟩ => rfl | ⟨1, _⟩ => rfl | ⟨2, _⟩ => rfl)
theorem ridx0_ix (b : Fin 8) (s : Fin 4096) (h k : Fin 1024) : Read.ridx_main_v0 (ix3 b s h) k = ix2 h k :=
  funext fun a => Fin.ext (by match a with | ⟨0, _⟩ => rfl | ⟨1, _⟩ => rfl)
theorem lidx4_ix (b : Fin 8) (s : Fin 4096) (h k : Fin 1024) : Read.lidx_main_v4 (ix3 b s h) k = ix3 b s k :=
  funext fun a => Fin.ext (by match a with | ⟨0, _⟩ => rfl | ⟨1, _⟩ => rfl | ⟨2, _⟩ => rfl)
theorem ridx4_ix (b : Fin 8) (s : Fin 4096) (h k : Fin 1024) : Read.ridx_main_v4 (ix3 b s h) k = ix2 h k :=
  funext fun a => Fin.ext (by match a with | ⟨0, _⟩ => rfl | ⟨1, _⟩ => rfl)
theorem idx1_2_ix (b : Fin 8) (s : Fin 4096) (h : Fin 1024) : Read.idx_main_v1 (Read.idx_main_v2 (ix3 b s h)) = ix1 h :=
  funext fun a => Fin.ext (by match a with | ⟨0, _⟩ => rfl)
theorem idx5_6_ix (b : Fin 8) (s : Fin 4096) (h : Fin 1024) : Read.idx_main_v5 (Read.idx_main_v6 (ix3 b s h)) = ix1 h :=
  funext fun a => Fin.ext (by match a with | ⟨0, _⟩ => rfl)
theorem lidx10_ix (b : Fin 8) (s : Fin 4096) (k : Fin 1024) : Read.lidx_main_v10 (ix3 b s (0 : Fin 1)) k = ix3 b s k :=
  funext fun a => Fin.ext (by match a with | ⟨0, _⟩ => rfl | ⟨1, _⟩ => rfl | ⟨2, _⟩ => rfl)
theorem ridx10_ix (b : Fin 8) (s : Fin 4096) (k : Fin 1024) : Read.ridx_main_v10 (ix3 b s (0 : Fin 1)) k = ix2 (0 : Fin 1) k :=
  funext fun a => Fin.ext (by match a with | ⟨0, _⟩ => rfl | ⟨1, _⟩ => rfl)
theorem idx11_12_ix (b : Fin 8) (s : Fin 4096) : Read.idx_main_v11 (Read.idx_main_v12 (ix3 b s (0 : Fin 1))) = ix1 (0 : Fin 1) :=
  funext fun a => Fin.ext (by match a with | ⟨0, _⟩ => rfl)
theorem idx14_ix (b : Fin 8) (s : Fin 4096) : Read.idx_main_v14 (ix2 b s) = ix3 b s (0 : Fin 1) :=
  funext fun a => Fin.ext (by
    have hb : b.val < 8 := b.isLt
    have hs : s.val < 4096 := s.isLt
    match a with
    | ⟨0, _⟩ => show (b.val * 4096 + s.val) / 4096 = b.val; omega
    | ⟨1, _⟩ => show (b.val * 4096 + s.val) / 1 % 4096 = s.val; omega
    | ⟨2, _⟩ => rfl)
theorem idx15_ix (b : Fin 8) (s : Fin 4096) : Read.idx_main_v15 (ix3 b (0 : Fin 1) s) = ix2 b s :=
  funext fun a => Fin.ext (by match a with | ⟨0, _⟩ => rfl | ⟨1, _⟩ => rfl)
theorem idx19_20_ix (b : Fin 8) (s : Fin 4096) : Read.idx_main_v19 (Read.idx_main_v20 (ix3 b (0 : Fin 1) s)) = ix2 b (0 : Fin 1) :=
  funext fun a => Fin.ext (by match a with | ⟨0, _⟩ => rfl | ⟨1, _⟩ => rfl)
theorem idx24_25_ix (b : Fin 8) (s : Fin 4096) : Read.idx_main_v24 (Read.idx_main_v25 (ix3 b (0 : Fin 1) s)) = ix2 b (0 : Fin 1) :=
  funext fun a => Fin.ext (by match a with | ⟨0, _⟩ => rfl | ⟨1, _⟩ => rfl)
theorem idx23_ix (b : Fin 8) (k : Fin 4096) : Read.idx_main_v23 (ix2 b (0 : Fin 1)) k = ix3 b (0 : Fin 1) k :=
  funext fun a => Fin.ext (by match a with | ⟨0, _⟩ => rfl | ⟨1, _⟩ => rfl | ⟨2, _⟩ => rfl)
theorem lidx27_ix (b : Fin 8) (h : Fin 1024) (k : Fin 4096) : Read.lidx_main_v27 (ix3 b (0 : Fin 1) h) k = ix3 b (0 : Fin 1) k :=
  funext fun a => Fin.ext (by match a with | ⟨0, _⟩ => rfl | ⟨1, _⟩ => rfl | ⟨2, _⟩ => rfl)
theorem ridx27_ix (b : Fin 8) (h : Fin 1024) (k : Fin 4096) : Read.ridx_main_v27 (ix3 b (0 : Fin 1) h) k = ix3 b k h :=
  funext fun a => Fin.ext (by match a with | ⟨0, _⟩ => rfl | ⟨1, _⟩ => rfl | ⟨2, _⟩ => rfl)

variable (x0 x1 : (⟨S8x4096x1024, .f32⟩ : BufTy).Contents (Elt Ideal)) (x2 : (⟨S1024x1024, .f32⟩ : BufTy).Contents (Elt Ideal))
  (x3 : (⟨S1024, .f32⟩ : BufTy).Contents (Elt Ideal)) (x4 : (⟨S1024x1024, .f32⟩ : BufTy).Contents (Elt Ideal))
  (x5 : (⟨S1024, .f32⟩ : BufTy).Contents (Elt Ideal)) (x6 : (⟨S1x1024, .f32⟩ : BufTy).Contents (Elt Ideal))
  (x7 : (⟨S1, .f32⟩ : BufTy).Contents (Elt Ideal))

/-- The score of position s of batch row b, from the eight argument arrays. -/
def scoreX (b : Fin 8) (s : Fin 4096) : EReal :=
  AttnSpec.score (fun j => (x0 : S8x4096x1024.Idx → EReal) (ix3 b s j))
    (fun j => (x1 : S8x4096x1024.Idx → EReal) (ix3 b s j))
    (fun h j => (x2 : S1024x1024.Idx → EReal) (ix2 h j))
    (fun h j => (x4 : S1024x1024.Idx → EReal) (ix2 h j))
    (fun h => (x3 : S1024.Idx → EReal) (ix1 h))
    (fun h => (x5 : S1024.Idx → EReal) (ix1 h))
    (fun h => (x6 : S1x1024.Idx → EReal) (ix2 0 h))
    ((x7 : S1.Idx → EReal) (ix1 0))

/-- The pre-activation at (b, s, h): the query projection plus its bias, plus the key projection plus its bias. -/
theorem v8_at (b : Fin 8) (s : Fin 4096) (h : Fin 1024) :
    Read.val_main_v8 (F := Ideal) x0 x1 x2 x3 x4 x5 (ix3 b s h)
      = ((∑ j : Fin 1024, (x0 : S8x4096x1024.Idx → EReal) (ix3 b s j) * (x2 : S1024x1024.Idx → EReal) (ix2 h j)) + (x3 : S1024.Idx → EReal) (ix1 h))
        + ((∑ j : Fin 1024, (x1 : S8x4096x1024.Idx → EReal) (ix3 b s j) * (x4 : S1024x1024.Idx → EReal) (ix2 h j)) + (x5 : S1024.Idx → EReal) (ix1 h)) := by
  rw [Read.val_main_v8_apply, Read.val_main_v3_apply, Read.val_main_v7_apply, Read.val_main_v0_apply, Read.val_main_v4_apply,
    Read.val_main_v2_apply, Read.val_main_v1_apply, Read.val_main_v6_apply, Read.val_main_v5_apply]
  simp only [Ideal.addf_def, lidx0_ix, ridx0_ix, lidx4_ix, ridx4_ix, idx1_2_ix, idx5_6_ix]

/-- The reshaped score array at (b, s) is the score. -/
theorem v14_at (b : Fin 8) (s : Fin 4096) :
    Read.val_main_v14 (F := Ideal) x0 x1 x2 x3 x4 x5 x6 x7 (ix2 b s) = scoreX x0 x1 x2 x3 x4 x5 x6 x7 b s := by
  rw [Read.val_main_v14_apply, idx14_ix, Read.val_main_v13_apply, Read.val_main_v10_apply, Read.val_main_v12_apply,
    Read.val_main_v11_apply, idx11_12_ix]
  simp only [Read.val_main_v9_apply, lidx10_ix, ridx10_ix, v8_at, Ideal.addf_def, Ideal.hostUnary_tanh_def]
  rfl

/-- The broadcast score array at (b, 0, s) is the score. -/
theorem v15_at (b : Fin 8) (s : Fin 4096) :
    Read.val_main_v15 (F := Ideal) x0 x1 x2 x3 x4 x5 x6 x7 (ix3 b (0 : Fin 1) s) = scoreX x0 x1 x2 x3 x4 x5 x6 x7 b s := by
  rw [Read.val_main_v15_apply, idx15_ix, v14_at]

/-- The max-reduce at (b, 0): the fold of max over the row's scores from the printed start. -/
theorem v16_at (b : Fin 8) :
    Read.val_main_v16 (F := Ideal) x0 x1 x2 x3 x4 x5 x6 x7 (ix2 b (0 : Fin 1))
      = (Finset.univ : Finset (Fin 4096)).fold max AttnSpec.maxStart (fun s' => scoreX x0 x1 x2 x3 x4 x5 x6 x7 b s') := by
  unfold Read.val_main_v16
  have h : S8x1x4096.Reduces [2] S8x1 := by decide
  rw [Host.reduce_eq_fold_single FloatOps.maximumf _ _ reducesTo_S8x1x4096_S8x1_d2 h h_S_]
  have hf : (Read.val_main_v15 (F := Ideal) x0 x1 x2 x3 x4 x5 x6 x7 ∘ h.lift (ix2 b (0 : Fin 1)))
      = fun s' : Fin 4096 => scoreX x0 x1 x2 x3 x4 x5 x6 x7 b s' := funext fun k => by
    show Read.val_main_v15 (F := Ideal) x0 x1 x2 x3 x4 x5 x6 x7 (h.lift (ix2 b (0 : Fin 1)) k) = _
    have e : h.lift (ix2 b (0 : Fin 1)) k = ix3 b (0 : Fin 1) (⟨k.val, k.isLt⟩ : Fin 4096) :=
      funext fun a => Fin.ext (by match a with | ⟨0, _⟩ => rfl | ⟨1, _⟩ => rfl | ⟨2, _⟩ => rfl)
    rw [e]
    exact v15_at x0 x1 x2 x3 x4 x5 x6 x7 b _
  exact congrArg (fun f => Finset.fold max AttnSpec.maxStart f (Finset.univ : Finset (Fin 4096))) hf

/-- The shifted maximum at (b, 0) is the row maximum of the scores. -/
theorem v18_at (b : Fin 8) :
    Read.val_main_v18 (F := Ideal) x0 x1 x2 x3 x4 x5 x6 x7 (ix2 b (0 : Fin 1)) = AttnSpec.rowMax (fun s' => scoreX x0 x1 x2 x3 x4 x5 x6 x7 b s') := by
  rw [Read.val_main_v18_apply, Read.val_main_v17_apply, Read.val_main_cst_0_apply, v16_at]
  rfl

/-- The exponential of the shifted score at (b, 0, s). -/
theorem v22_at (b : Fin 8) (s : Fin 4096) :
    Read.val_main_v22 (F := Ideal) x0 x1 x2 x3 x4 x5 x6 x7 (ix3 b (0 : Fin 1) s)
      = Ideal.exp (scoreX x0 x1 x2 x3 x4 x5 x6 x7 b s - AttnSpec.rowMax (fun s' => scoreX x0 x1 x2 x3 x4 x5 x6 x7 b s')) := by
  rw [Read.val_main_v22_apply, Read.val_main_v21_apply, Read.val_main_v20_apply, Read.val_main_v19_apply, idx19_20_ix,
    v18_at, v15_at]
  rfl

/-- The row's sum of exponentials at (b, 0), from the printed start. -/
theorem v23_at (b : Fin 8) :
    Read.val_main_v23 (F := Ideal) x0 x1 x2 x3 x4 x5 x6 x7 (ix2 b (0 : Fin 1))
      = AttnSpec.sumStart + ∑ s' : Fin 4096, Ideal.exp (scoreX x0 x1 x2 x3 x4 x5 x6 x7 b s' - AttnSpec.rowMax (fun s'' => scoreX x0 x1 x2 x3 x4 x5 x6 x7 b s'')) := by
  rw [Read.val_main_v23_apply, Read.val_main_cst_1_apply]
  simp only [idx23_ix, v22_at]
  rfl

/-- The weights at (b, 0, s): the softmax of the row's scores. -/
theorem v26_at (b : Fin 8) (s : Fin 4096) :
    Read.val_main_v26 (F := Ideal) x0 x1 x2 x3 x4 x5 x6 x7 (ix3 b (0 : Fin 1) s) = AttnSpec.softmaxRow (fun s' => scoreX x0 x1 x2 x3 x4 x5 x6 x7 b s') s := by
  rw [Read.val_main_v26_apply, Read.val_main_v25_apply, Read.val_main_v24_apply, idx24_25_ix, v23_at, v22_at]
  rfl

/-- The context at (b, 0, h): the sum over positions of weight times key entry. -/
theorem v27_at (b : Fin 8) (h : Fin 1024) :
    Read.val_main_v27 (F := Ideal) x0 x1 x2 x3 x4 x5 x6 x7 (ix3 b (0 : Fin 1) h)
      = ∑ k : Fin 4096, Read.val_main_v26 (F := Ideal) x0 x1 x2 x3 x4 x5 x6 x7 (ix3 b (0 : Fin 1) k) * (x1 : S8x4096x1024.Idx → EReal) (ix3 b k h) := by
  rw [Read.val_main_v27_apply]
  simp only [lidx27_ix, ridx27_ix]

end Stages

variable (m : (ℓ : Loc nD τ sig) → Buf (Elt Ideal) ℓ)

/-- The score of position s of batch row b, from the reference's argument arrays. -/
def scoreOf (c : Dev nD) (b : Fin 8) (s : Fin 4096) : EReal :=
  AttnSpec.score (fun j => (m ((c.tc : Thread nD τ).loc main_arg0) : S8x4096x1024.Idx → EReal) (ix3 b s j))
    (fun j => (m ((c.tc : Thread nD τ).loc main_arg1) : S8x4096x1024.Idx → EReal) (ix3 b s j))
    (fun h j => (m ((c.tc : Thread nD τ).loc main_arg2) : S1024x1024.Idx → EReal) (ix2 h j))
    (fun h j => (m ((c.tc : Thread nD τ).loc main_arg4) : S1024x1024.Idx → EReal) (ix2 h j))
    (fun h => (m ((c.tc : Thread nD τ).loc main_arg3) : S1024.Idx → EReal) (ix1 h))
    (fun h => (m ((c.tc : Thread nD τ).loc main_arg5) : S1024.Idx → EReal) (ix1 h))
    (fun h => (m ((c.tc : Thread nD τ).loc main_arg6) : S1x1024.Idx → EReal) (ix2 0 h))
    ((m ((c.tc : Thread nD τ).loc main_arg7) : S1.Idx → EReal) (ix1 0))

/-- The reference's weights at (b, 0, s): the softmax of row b's scores at s. -/
theorem weights_ref (c : Dev nD) (b : Fin 8) (s : Fin 4096) :
    (res_main_v26 (F := Ideal) m c : S8x1x4096.Idx → EReal) (ix3 b 0 s) = AttnSpec.softmaxRow (fun s' => scoreOf m c b s') s := by
  rw [Read.val_main_v26_eq]
  exact v26_at _ _ _ _ _ _ _ _ b s

/-- The reference's context at (b, 0, h): the weights' sum of keys. -/
theorem context_ref (c : Dev nD) (b : Fin 8) (h : Fin 1024) :
    (res_main_v27 (F := Ideal) m c : S8x1x1024.Idx → EReal) (ix3 b 0 h)
      = AttnSpec.wsum (fun s => (res_main_v26 (F := Ideal) m c : S8x1x4096.Idx → EReal) (ix3 b 0 s))
          (fun s => (m ((c.tc : Thread nD τ).loc main_arg1) : S8x4096x1024.Idx → EReal) (ix3 b s h)) := by
  rw [Read.val_main_v27_eq, Read.val_main_v26_eq]
  exact v27_at _ _ _ _ _ _ _ _ b h

end Cert.ReferenceIdeal.RefSide

end
-- ==== Proof.lean ====
/-
  The certificate's five claims for additive attention with one score per position.
  Frames. Each of the two kernel programs (the word-level one and its idealization: the same text under two namespaces)
  runs as five items — host transposes, the scores region, the host softmax, the context region, two host reshapes —
  and no item writes an argument array; the reference is a straight line of host operations. The ideal pass rewrote
  nothing, so the idealization claim is empty.
  Values, over the extended reals. Both programs return the softmax weights w[b, s] of the scores
      (sum over h of tanh((q . Qw[h] + Qb[h]) + (k . Kw[h] + Kb[h])) * Vw[h]) + Vb
  and the context sum over s of w[b, s] * keys[b, s, h]. The kernel computes the scores in blocks of 128 positions
  against the transposed weights (its casts to a shorter format are the identity here), the softmax on [8, 4096] where
  the reference has [8, 1, 4096], and the context by accumulating 16 tiles of 256 positions from a cleared
  accumulator: a regrouping of one finite sum, which holds on the extended reals with no finiteness assumption.
-/
import proofs.«108339_j59459527246143_1_alg».proof.Defs
import proofs.«108339_j59459527246143_1_alg».proof.Proof.Gen.Kernel
import proofs.«108339_j59459527246143_1_alg».proof.Proof.Gen.KernelIdeal
import proofs.«108339_j59459527246143_1_alg».proof.Proof.Gen.ReferenceIdeal
import proofs.«108339_j59459527246143_1_alg».proof.Proof.Gen.Pre_finite_inputs
import proofs.«108339_j59459527246143_1_alg».proof.Proof.FrameK.Run
import proofs.«108339_j59459527246143_1_alg».proof.Proof.FrameKI.Run
import proofs.«108339_j59459527246143_1_alg».proof.Proof.ValReg0
import proofs.«108339_j59459527246143_1_alg».proof.Proof.ValReg1
import proofs.«108339_j59459527246143_1_alg».proof.Proof.RunValue
import proofs.«108339_j59459527246143_1_alg».proof.Proof.RefSide

set_option maxRecDepth 16384

noncomputable section

namespace Cert.Proof

open Idealize.ShloMosaic Idealize.ShloMosaic.TcCoe Idealize.SL.Sem
open Idealize.ShloMosaic.ValueIdx (ix1 ix2 ix3 eq_ix3)

/-! ## The frames and the idealization -/

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ =>
  (θ_run Cert.ReferenceIdeal.defs _ _).mono (fun _ h c => (h c).2.2) (Cert.ReferenceIdeal.Value.run (F := Ideal) m ρ)
theorem preserves : Cert.preserves_Kernel_KernelIdeal := trivial

/-! ## The two programs' results are one function of the arguments -/

/-- Equal arguments give equal scores. -/
theorem score_congr {q q' k k' : Fin 1024 → EReal} {Qw Qw' Kw Kw' : Fin 1024 → Fin 1024 → EReal} {Qb Qb' Kb Kb' Vw Vw' : Fin 1024 → EReal}
    {Vb Vb' : EReal} (h1 : q = q') (h2 : k = k') (h3 : Qw = Qw') (h4 : Kw = Kw') (h5 : Qb = Qb') (h6 : Kb = Kb') (h7 : Vw = Vw')
    (h8 : Vb = Vb') : AttnSpec.score q k Qw Kw Qb Kb Vw Vb = AttnSpec.score q' k' Qw' Kw' Qb' Kb' Vw' Vb' := by
  subst h1 h2 h3 h4 h5 h6 h7 h8; rfl

section Values

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ)
  (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))

include hagree

/-- The kernel's scores array at (b, s) is the reference's score of that position: the region's matrices are the
    launched weights transposed, its score bias the launched one reshaped, and the arguments agree. -/
theorem scores_eq (c : Dev Cert.KernelIdeal.nD) (b : Fin 8) (s : Fin 4096) :
    ((Cert.KernelIdeal.Fr.dat0 (F := Ideal) (Cert.KernelIdeal.Fr.V1 m ρ) c).arrAt 8 Cert.KernelIdeal.cfg0.N : Cert.KernelIdeal.S8x4096.Idx → EReal) (ix2 b s)
      = Cert.ReferenceIdeal.RefSide.scoreOf m' c b s := by
  refine (Cert.KernelIdeal.Val.scores_arr (Cert.KernelIdeal.Fr.V1 m ρ) c b s).trans ?_
  refine score_congr ?_ ?_ ?_ ?_ ?_ ?_ ?_ ?_
  · exact funext fun j => congrFun (show (Cert.KernelIdeal.Fr.V1 m ρ c Cert.KernelIdeal.main_arg0 : Cert.KernelIdeal.S8x4096x1024.Idx → EReal) = _ from (Cert.KernelIdeal.Val.V1_arg0 m ρ c).trans (hagree c).1.symm) (ix3 b s j)
  · exact funext fun j => congrFun (show (Cert.KernelIdeal.Fr.V1 m ρ c Cert.KernelIdeal.main_arg1 : Cert.KernelIdeal.S8x4096x1024.Idx → EReal) = _ from (Cert.KernelIdeal.Val.V1_arg1 m ρ c).trans (hagree c).2.1.symm) (ix3 b s j)
  · exact funext fun h => funext fun j => (Cert.KernelIdeal.Val.V1_v1 m ρ c j h).trans (congrFun (show (m ((c.tc : Thread Cert.KernelIdeal.nD Cert.KernelIdeal.τ).loc Cert.KernelIdeal.main_arg2) : Cert.KernelIdeal.S1024x1024.Idx → EReal) = _ from (hagree c).2.2.1.symm) (ix2 h j))
  · exact funext fun h => funext fun j => (Cert.KernelIdeal.Val.V1_v3 m ρ c j h).trans (congrFun (show (m ((c.tc : Thread Cert.KernelIdeal.nD Cert.KernelIdeal.τ).loc Cert.KernelIdeal.main_arg4) : Cert.KernelIdeal.S1024x1024.Idx → EReal) = _ from (hagree c).2.2.2.2.1.symm) (ix2 h j))
  · exact funext fun h => congrFun (show (Cert.KernelIdeal.Fr.V1 m ρ c Cert.KernelIdeal.main_arg3 : Cert.KernelIdeal.S1024.Idx → EReal) = _ from (Cert.KernelIdeal.Val.V1_arg3 m ρ c).trans (hagree c).2.2.2.1.symm) (ix1 h)
  · exact funext fun h => congrFun (show (Cert.KernelIdeal.Fr.V1 m ρ c Cert.KernelIdeal.main_arg5 : Cert.KernelIdeal.S1024.Idx → EReal) = _ from (Cert.KernelIdeal.Val.V1_arg5 m ρ c).trans (hagree c).2.2.2.2.2.1.symm) (ix1 h)
  · exact funext fun h => congrFun (show (Cert.KernelIdeal.Fr.V1 m ρ c Cert.KernelIdeal.main_arg6 : Cert.KernelIdeal.S1x1024.Idx → EReal) = _ from (Cert.KernelIdeal.Val.V1_arg6 m ρ c).trans (hagree c).2.2.2.2.2.2.1.symm) (ix2 0 h)
  · exact (Cert.KernelIdeal.Val.V1_v4 m ρ c).trans (congrFun (show (m ((c.tc : Thread Cert.KernelIdeal.nD Cert.KernelIdeal.τ).loc Cert.KernelIdeal.main_arg7) : Cert.KernelIdeal.S1.Idx → EReal) = _ from (hagree c).2.2.2.2.2.2.2.symm) (ix1 0))

/-- The second results agree: the softmax weights. -/
theorem weights_eq (c : Dev Cert.KernelIdeal.nD) :
    Cert.ReferenceIdeal.Value.res_main_v26 (F := Ideal) m' c = Cert.KernelIdeal.Fr.W5 m ρ c (Proc.devRef .tc Cert.KernelIdeal.main_v19) := by
  show (Cert.ReferenceIdeal.Value.res_main_v26 (F := Ideal) m' c : Cert.ReferenceIdeal.S8x1x4096.Idx → EReal) = _
  funext i
  obtain ⟨b, z, s, rfl⟩ : ∃ (b : Fin 8) (z : Fin 1) (s : Fin 4096), i = ix3 b z s := ⟨i 0, i 1, i 2, eq_ix3 i⟩
  obtain rfl : z = 0 := Subsingleton.elim _ _
  refine (Cert.ReferenceIdeal.RefSide.weights_ref m' c b s).trans ?_
  refine Eq.trans ?_ ((Cert.KernelIdeal.Val.res1_K m ρ c b s).trans (Cert.KernelIdeal.Val.V3_v16 m ρ c b s)).symm
  exact congrArg (fun x => AttnSpec.softmaxRow x s) (funext fun s' => (scores_eq m ρ m' hagree c b s').symm)

/-- The first results agree: the context. -/
theorem context_eq (c : Dev Cert.KernelIdeal.nD) :
    Cert.ReferenceIdeal.Value.res_main_v27 (F := Ideal) m' c = Cert.KernelIdeal.Fr.W5 m ρ c (Proc.devRef .tc Cert.KernelIdeal.main_v18) := by
  show (Cert.ReferenceIdeal.Value.res_main_v27 (F := Ideal) m' c : Cert.ReferenceIdeal.S8x1x1024.Idx → EReal) = _
  funext i
  obtain ⟨b, z, h, rfl⟩ : ∃ (b : Fin 8) (z : Fin 1) (h : Fin 1024), i = ix3 b z h := ⟨i 0, i 1, i 2, eq_ix3 i⟩
  obtain rfl : z = 0 := Subsingleton.elim _ _
  refine (Cert.ReferenceIdeal.RefSide.context_ref m' c b h).trans ?_
  refine Eq.trans ?_ ((Cert.KernelIdeal.Val.res0_K m ρ c b h).trans (Cert.KernelIdeal.Val.context_arr (Cert.KernelIdeal.Fr.V3 m ρ) c b h)).symm
  refine congrArg₂ AttnSpec.wsum (funext fun s => ?_) (funext fun s => ?_)
  · refine (congrFun (weights_eq m ρ m' hagree c) (ix3 b 0 s)).trans ?_
    exact (Cert.KernelIdeal.Val.res1_K m ρ c b s)
  · rw [Cert.KernelIdeal.Val.V3_arg1, (hagree c).2.1]

end Values

/-- Run from memories that agree on the arguments, both idealized programs terminate with equal results: the context
    and the softmax weights, as the kernel's run leaves them. -/
theorem algebraic : Cert.algebraic_KernelIdeal_ReferenceIdeal := by
  intro m ρ m' ρ' _ hagree
  refine ⟨fun c => Cert.KernelIdeal.Fr.W5 m ρ c (Proc.devRef .tc Cert.KernelIdeal.main_v18), fun c => Cert.KernelIdeal.Fr.W5 m ρ c (Proc.devRef .tc Cert.KernelIdeal.main_v19), ?_, ?_⟩
  · exact (θ_run Cert.KernelIdeal.defs _ _).mono (fun r h c =>
      ⟨h c _ (Cert.KernelIdeal.Fr.mem_uc Cert.KernelIdeal.main_v18 (by decide)), h c _ (Cert.KernelIdeal.Fr.mem_uc Cert.KernelIdeal.main_v19 (by decide)),
       (h c _ (Cert.KernelIdeal.Fr.mem_uc Cert.KernelIdeal.main_arg0 (by decide))).trans (Cert.KernelIdeal.Fr.W5_main_arg0 m ρ c),
       (h c _ (Cert.KernelIdeal.Fr.mem_uc Cert.KernelIdeal.main_arg1 (by decide))).trans (Cert.KernelIdeal.Fr.W5_main_arg1 m ρ c),
       (h c _ (Cert.KernelIdeal.Fr.mem_uc Cert.KernelIdeal.main_arg2 (by decide))).trans (Cert.KernelIdeal.Fr.W5_main_arg2 m ρ c),
       (h c _ (Cert.KernelIdeal.Fr.mem_uc Cert.KernelIdeal.main_arg3 (by decide))).trans (Cert.KernelIdeal.Fr.W5_main_arg3 m ρ c),
       (h c _ (Cert.KernelIdeal.Fr.mem_uc Cert.KernelIdeal.main_arg4 (by decide))).trans (Cert.KernelIdeal.Fr.W5_main_arg4 m ρ c),
       (h c _ (Cert.KernelIdeal.Fr.mem_uc Cert.KernelIdeal.main_arg5 (by decide))).trans (Cert.KernelIdeal.Fr.W5_main_arg5 m ρ c),
       (h c _ (Cert.KernelIdeal.Fr.mem_uc Cert.KernelIdeal.main_arg6 (by decide))).trans (Cert.KernelIdeal.Fr.W5_main_arg6 m ρ c),
       (h c _ (Cert.KernelIdeal.Fr.mem_uc Cert.KernelIdeal.main_arg7 (by decide))).trans (Cert.KernelIdeal.Fr.W5_main_arg7 m ρ c)⟩)
      (Cert.KernelIdeal.Fr.run_main m ρ)
  · exact (θ_run Cert.ReferenceIdeal.defs _ _).mono (fun r h c =>
      ⟨(h c).1.trans (context_eq m ρ m' hagree c), (h c).2.1.trans (weights_eq m ρ m' hagree c), (h c).2.2⟩)
      (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
